-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S8 .f32) (main_arg8 : FVec F S1x8 .f32) (main_arg9 : FVec F S1 .f32) (main_arg10 : FVec F S1 .f32) (main_arg11 : FVec F S1 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8 .f32 := Host.absf main_arg8
  let main_cst_14 : FVec F S_ .f32 := constant S_ .f32 0x7F800000#32
  let main_v40 : FVec F S1x8 .f32 := broadcastInDim S1x8 ![] bcast_S_S1x8 main_cst_14
  let main_v41 : IVec S1x8 1 := cmpf .olt main_v39 main_v40
  let main_c_15 : IVec S_ 1 := constantI S_ 1 1#1
  let main_v42 : IVec S_ 1 := (fun x v => Host.reduce IntOp.andi x v reducesTo_S1x8_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_v48 main_v49 main_v50

def fn_part1 {F : FTy → Type} [FloatOps F] (main_arg4 : FVec F S2048 .f32) (main_arg5 : FVec F S2048 .f32) (main_arg6 : FVec F S8x3 .f32) (main_arg7 : FVec F S8 .f32) (main_arg8 : FVec F S1x8 .f32) (main_arg9 : FVec F S1 .f32) (main_arg10 : FVec F S1 .f32) (main_arg11 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S8x3 .f32 := Host.absf main_arg6
  let main_cst_10 : FVec F S_ .f32 := constant S_ .f32 0x7F800000#32
  let main_v30 : FVec F S8x3 .f32 := broadcastInDim S8x3 ![] bcast_S_S8x3 main_cst_10
  let main_v31 : IVec S8x3 1 := cmpf .olt main_v29 main_v30
  let main_c_11 : IVec S_ 1 := constantI S_ 1 1#1
  let main_v32 : IVec S_ 1 := (fun x v => Host.reduce IntOp.andi x v reducesTo_S8x3_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048 .f32) (main_arg5 : FVec F S2048 .f32) (main_arg6 : FVec F S8x3 .f32) (main_arg7 : FVec F S8 .f32) (main_arg8 : FVec F S1x8 .f32) (main_arg9 : FVec F S1 .f32) (main_arg10 : FVec F S1 .f32) (main_arg11 : FVec F S1 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S1x2048 : Shape := ⟨2, ![1, 2048]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x3, .f32⟩
  | .hbm, ⟨7, _⟩ => ⟨S8, .f32⟩
  | .hbm, ⟨8, _⟩ => ⟨S1x8, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1x2048, .f32⟩
  | .hbm, ⟨13, _⟩ => ⟨S1x2048, .f32⟩
  | .hbm, ⟨14, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x2048.size a
  hwx0_0 : ∀ i : grid0.Coords, EltTy.bits .f32 = 32 ∨ (Rect.block (s := S4096x2048) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .f32 = 32 ∨ (Rect.block (s := S2048x2048) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x2048.size a
  hwx0_6 : ∀ i : grid0.Coords, EltTy.bits .f32 = 32 ∨ (Rect.block (s := S4096x2048) S512x2048.size (cc0_transform_6 i) (hinb0_6 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S4096x3 : Shape := ⟨2, ![4096, 3]⟩
abbrev S3x8 : Shape := ⟨2, ![3, 8]⟩
abbrev S4096x8 : Shape := ⟨2, ![4096, 8]⟩
abbrev S8x1 : Shape := ⟨2, ![8, 1]⟩
abbrev S1x2048 : Shape := ⟨2, ![1, 2048]⟩

abbrev nBuf : Space → Nat
  | .hbm => 203
  | .vmem => 0
  | .smem => 0
  | _ => 0

abbrev hbmTy0_0 (i : Nat) : BufTy := match i % 128 with
  | 0 => ⟨S4096x2048, .f32⟩
  | 1 => ⟨S2048x2048, .f32⟩
  | 2 => ⟨S2048x2048, .f32⟩
  | 3 => ⟨S2048x2048, .f32⟩
  | 4 => ⟨S2048, .f32⟩
  | 5 => ⟨S2048, .f32⟩
  | 6 => ⟨S8x3, .f32⟩
  | 7 => ⟨S8, .f32⟩
  | 8 => ⟨S1x8, .f32⟩
  | 9 => ⟨S1, .f32⟩
  | 10 => ⟨S1, .f32⟩
  | 11 => ⟨S1, .f32⟩
  | 12 => ⟨S_, .f32⟩
  | 13 => ⟨S_, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S2048x2048, .f32⟩
  | 21 => ⟨S4096x2048, .f32⟩
  | 22 => ⟨S_, .f32⟩
  | 23 => ⟨S_, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S2048x2048, .f32⟩
  | 31 => ⟨S4096x2048, .f32⟩
  | 32 => ⟨S4096x2048, .f32⟩
  | 33 => ⟨S2048x2048, .f32⟩
  | 34 => ⟨S4096x2048, .f32⟩
  | 35 => ⟨S4096x2048, .f32⟩
  | 36 => ⟨S_, .f32⟩
  | 37 => ⟨S_, .f32⟩
  | 38 => ⟨S_, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .i32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S4096x2048, .f32⟩
  | 58 => ⟨S4096x2048, .f32⟩
  | 59 => ⟨S4096x2048, .f32⟩
  | 60 => ⟨S_, .f32⟩
  | 61 => ⟨S_, .f32⟩
  | 62 => ⟨S_, .f32⟩
  | 63 => ⟨S_, .f32⟩
  | 64 => ⟨S4096, .f32⟩
  | 65 => ⟨S4096x1, .f32⟩
  | 66 => ⟨S4096x1, .f32⟩
  | 67 => ⟨S4096x1, .f32⟩
  | 68 => ⟨S_, .f32⟩
  | 69 => ⟨S_, .i1⟩
  | 70 => ⟨S_, .f32⟩
  | 71 => ⟨S_, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S1, .f32⟩
  | 80 => ⟨S1, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S1, .f32⟩
  | 89 => ⟨S_, .f32⟩
  | 90 => ⟨S_, .f32⟩
  | 91 => ⟨S_, .f32⟩
  | 92 => ⟨S1, .f32⟩
  | 93 => ⟨S1, .f32⟩
  | 94 => ⟨S_, .f32⟩
  | 95 => ⟨S1, .f32⟩
  | 96 => ⟨S1, .f32⟩
  | 97 => ⟨S_, .f32⟩
  | 98 => ⟨S1, .f32⟩
  | 99 => ⟨S1, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S1, .f32⟩
  | 107 => ⟨S1, .f32⟩
  | 108 => ⟨S_, .f32⟩
  | 109 => ⟨S_, .f32⟩
  | 110 => ⟨S_, .f32⟩
  | 111 => ⟨S1, .f32⟩
  | 112 => ⟨S1, .f32⟩
  | 113 => ⟨S_, .f32⟩
  | 114 => ⟨S1, .f32⟩
  | 115 => ⟨S1, .f32⟩
  | 116 => ⟨S1, .f32⟩
  | 117 => ⟨S_, .f32⟩
  | 118 => ⟨S1, .f32⟩
  | 119 => ⟨S1, .f32⟩
  | 120 => ⟨S1, .f32⟩
  | 121 => ⟨S1x1, .f32⟩
  | 122 => ⟨S4096x1, .f32⟩
  | 123 => ⟨S4096x3, .f32⟩
  | 124 => ⟨S3x8, .f32⟩
  | 125 => ⟨S4096x8, .f32⟩
  | 126 => ⟨S1x8, .f32⟩
  | 127 => ⟨S4096x8, .f32⟩
  | _ => ⟨S4096x2048, .f32⟩

abbrev hbmTy0_1 (i : Nat) : BufTy := match i % 128 with
  | 0 => ⟨S4096x8, .f32⟩
  | 1 => ⟨S_, .f32⟩
  | 2 => ⟨S4096x8, .f32⟩
  | 3 => ⟨S4096x8, .f32⟩
  | 4 => ⟨S4096x8, .f32⟩
  | 5 => ⟨S_, .f32⟩
  | 6 => ⟨S4096x8, .f32⟩
  | 7 => ⟨S4096x8, .f32⟩
  | 8 => ⟨S4096x8, .f32⟩
  | 9 => ⟨S4096x8, .f32⟩
  | 10 => ⟨S8x1, .f32⟩
  | 11 => ⟨S4096x1, .f32⟩
  | 12 => ⟨S1x1, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .i32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S4096x2048, .f32⟩
  | 40 => ⟨S_, .f32⟩
  | 41 => ⟨S_, .f32⟩
  | 42 => ⟨S_, .f32⟩
  | 43 => ⟨S_, .f32⟩
  | 44 => ⟨S4096, .f32⟩
  | 45 => ⟨S4096x1, .f32⟩
  | 46 => ⟨S4096x1, .f32⟩
  | 47 => ⟨S4096x1, .f32⟩
  | 48 => ⟨S_, .f32⟩
  | 49 => ⟨S_, .i1⟩
  | 50 => ⟨S_, .f32⟩
  | 51 => ⟨S_, .f32⟩
  | 52 => ⟨S4096x1, .f32⟩
  | 53 => ⟨S4096x1, .f32⟩
  | 54 => ⟨S4096x2048, .f32⟩
  | 55 => ⟨S4096x2048, .f32⟩
  | 56 => ⟨S_, .f32⟩
  | 57 => ⟨S4096x1, .f32⟩
  | 58 => ⟨S4096x1, .f32⟩
  | 59 => ⟨S4096x1, .f32⟩
  | 60 => ⟨S4096x2048, .f32⟩
  | 61 => ⟨S4096x2048, .f32⟩
  | 62 => ⟨S1x2048, .f32⟩
  | 63 => ⟨S4096x2048, .f32⟩
  | 64 => ⟨S4096x2048, .f32⟩
  | 65 => ⟨S1x2048, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S4096x2048, .f32⟩
  | 72 => ⟨S_, .f32⟩
  | 73 => ⟨S4096x2048, .f32⟩
  | 74 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v10 : Ref sig .tc := ⟨.hbm, 43, rfl⟩
abbrev main_cst_5 : Ref sig .tc := ⟨.hbm, 44, rfl⟩
abbrev main_v11 : Ref sig .tc := ⟨.hbm, 45, rfl⟩
abbrev main_v12 : Ref sig .tc := ⟨.hbm, 46, rfl⟩
abbrev main_cst_6 : Ref sig .tc := ⟨.hbm, 47, rfl⟩
abbrev main_v13 : Ref sig .tc := ⟨.hbm, 48, rfl⟩
abbrev main_v14 : Ref sig .tc := ⟨.hbm, 49, rfl⟩
abbrev main_c : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_cst_0 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_cst_1 : Ref sig .tc := ⟨.hbm, 61, rfl⟩
abbrev main_call3_call0_v8 : Ref sig .tc := ⟨.hbm, 62, rfl⟩
abbrev main_call3_call0_cst_2 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_call0_v12 : Ref sig .tc := ⟨.hbm, 67, rfl⟩
abbrev main_call3_call0_cst_3 : Ref sig .tc := ⟨.hbm, 68, rfl⟩
abbrev main_call3_call0_v13 : Ref sig .tc := ⟨.hbm, 69, rfl⟩
abbrev main_call3_call0_cst_4 : Ref sig .tc := ⟨.hbm, 70, rfl⟩
abbrev main_call3_call0_call0_v0 : Ref sig .tc := ⟨.hbm, 71, rfl⟩
abbrev main_call3_call0_call0_v1 : Ref sig .tc := ⟨.hbm, 72, rfl⟩
abbrev main_call3_v0 : Ref sig .tc := ⟨.hbm, 73, rfl⟩
abbrev main_v15 : Ref sig .tc := ⟨.hbm, 74, rfl⟩
abbrev main_cst_7 : Ref sig .tc := ⟨.hbm, 75, rfl⟩
abbrev main_v16 : Ref sig .tc := ⟨.hbm, 76, rfl⟩
abbrev main_v17 : Ref sig .tc := ⟨.hbm, 77, rfl⟩
abbrev main_cst_8 : Ref sig .tc := ⟨.hbm, 78, rfl⟩
abbrev main_v18 : Ref sig .tc := ⟨.hbm, 79, rfl⟩
abbrev main_v19 : Ref sig .tc := ⟨.hbm, 80, rfl⟩
abbrev main_cst_9 : Ref sig .tc := ⟨.hbm, 81, rfl⟩
abbrev main_v20 : Ref sig .tc := ⟨.hbm, 82, rfl⟩
abbrev main_cst_10 : Ref sig .tc := ⟨.hbm, 83, rfl⟩
abbrev main_v21 : Ref sig .tc := ⟨.hbm, 84, rfl⟩
abbrev main_cst_11 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_cst_12 : Ref sig .tc := ⟨.hbm, 89, rfl⟩
abbrev main_cst_13 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v25 : Ref sig .tc := ⟨.hbm, 96, rfl⟩
abbrev main_cst_14 : Ref sig .tc := ⟨.hbm, 97, rfl⟩
abbrev main_v26 : Ref sig .tc := ⟨.hbm, 98, rfl⟩
abbrev main_v27 : Ref sig .tc := ⟨.hbm, 99, rfl⟩
abbrev main_cst_15 : Ref sig .tc := ⟨.hbm, 100, rfl⟩
abbrev main_v28 : Ref sig .tc := ⟨.hbm, 101, rfl⟩
abbrev main_cst_16 : Ref sig .tc := ⟨.hbm, 102, rfl⟩
abbrev main_v29 : Ref sig .tc := ⟨.hbm, 103, rfl⟩
abbrev main_cst_17 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_cst_18 : Ref sig .tc := ⟨.hbm, 108, rfl⟩
abbrev main_cst_19 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v33 : Ref sig .tc := ⟨.hbm, 115, rfl⟩
abbrev main_v34 : Ref sig .tc := ⟨.hbm, 116, rfl⟩
abbrev main_cst_20 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_21 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_cst_22 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_cst_23 : Ref sig .tc := ⟨.hbm, 145, rfl⟩
abbrev main_v60 : Ref sig .tc := ⟨.hbm, 146, rfl⟩
abbrev main_v61 : Ref sig .tc := ⟨.hbm, 147, rfl⟩
abbrev main_cst_24 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_cst_25 : Ref sig .tc := ⟨.hbm, 152, rfl⟩
abbrev main_v65 : Ref sig .tc := ⟨.hbm, 153, rfl⟩
abbrev main_v66 : Ref sig .tc := ⟨.hbm, 154, rfl⟩
abbrev main_cst_26 : Ref sig .tc := ⟨.hbm, 155, rfl⟩
abbrev main_v67 : Ref sig .tc := ⟨.hbm, 156, rfl⟩
abbrev main_v68 : Ref sig .tc := ⟨.hbm, 157, rfl⟩
abbrev main_c_27 : Ref sig .tc := ⟨.hbm, 158, rfl⟩
abbrev main_call6_cst : Ref sig .tc := ⟨.hbm, 159, rfl⟩
abbrev main_call6_v0 : Ref sig .tc := ⟨.hbm, 160, rfl⟩
abbrev main_call6_v1 : Ref sig .tc := ⟨.hbm, 161, rfl⟩
abbrev main_call6_cst_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_v7 : Ref sig .tc := ⟨.hbm, 168, rfl⟩
abbrev main_call6_cst_1 : Ref sig .tc := ⟨.hbm, 169, rfl⟩
abbrev main_call6_v8 : Ref sig .tc := ⟨.hbm, 170, rfl⟩
abbrev main_call6_cst_2 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_v12 : Ref sig .tc := ⟨.hbm, 175, rfl⟩
abbrev main_call6_cst_3 : Ref sig .tc := ⟨.hbm, 176, rfl⟩
abbrev main_call6_v13 : Ref sig .tc := ⟨.hbm, 177, rfl⟩
abbrev main_call6_cst_4 : Ref sig .tc := ⟨.hbm, 178, rfl⟩
abbrev main_call6_call0_v0 : Ref sig .tc := ⟨.hbm, 179, rfl⟩
abbrev main_call6_call0_v1 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_cst_28 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_cst_29 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_cst_30 : Ref sig .tc := ⟨.hbm, 200, rfl⟩
abbrev main_v86 : Ref sig .tc := ⟨.hbm, 201, rfl⟩
abbrev main_v87 : Ref sig .tc := ⟨.hbm, 202, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  transposes_S2048x2048_S2048x2048_1_0 : S2048x2048.Transposes [1, 0] S2048x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S1 : S_.BroadcastsInDim S1 (![] : Fin 0 → Fin S1.rank)
  reducesTo_S4096x1_S_d0_1 : S4096x1.ReducesTo [0, 1] S_
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  concatenates_S4096x1_S4096x1_S4096x1_S4096x3_d1 : Shape.Concatenates [S4096x1, S4096x1, S4096x1] S4096x3 1
  transposes_S8x3_S3x8_1_0 : S8x3.Transposes [1, 0] S3x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S4096x8 : S_.BroadcastsInDim S4096x8 (![] : Fin 0 → Fin S4096x8.rank)
  transposes_S1x8_S8x1_1_0 : S1x8.Transposes [1, 0] S8x1
  shapeCasts_S4096x1_S4096 : S4096x1.ShapeCasts S4096
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []
  dot_S4096x3_S3x8_S4096x8_1_0_0_1_n_n_wf : DotDims.WF S4096x3 S3x8 S4096x8 [1] [0] [0] [1] [] []
  dot_S4096x8_S8x1_S4096x1_1_0_0_1_n_n_wf : DotDims.WF S4096x8 S8x1 S4096x1 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x3_S3x8_S4096x8_1_0_0_1_n_n : DotDims S4096x3 S3x8 S4096x8 where
  lhsContracting := [1]
  rhsContracting := [0]
  lhsNonContracting := [0]
  rhsNonContracting := [1]
  lhsBatch := []
  rhsBatch := []
  wf := dot_S4096x3_S3x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

class Facts : Prop extends Facts₀ where

variable [Facts]
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Spec.lean ====
/-
  The function both programs compute, index by index, on the extended reals.

  Inputs: x [4096, 2048]; three weight matrices Ws, Wm, Wf [2048, 2048] (row o of a weight matrix is the
  weight vector of output feature o); a scale g and a shift b [2048].

  For a row r of x and an output feature o:
    xc r k     = x r k clamped to [-5, 5];
    dot W r o  = the sum over k of xc r k * W o k                       (x clamped times W transposed);
    pre r o    = clamp10 (clamp10 (dot Ws r o) + dot Wm r o + dot Wf r o);
  and on each row P = pre r of 2048 entries the normalisation
    mean P     = (sum over o of P o) / 2048,
    var P      = (sum over o of (P o - mean P)^2) / 2048,
    tail P o   = 5 * tanh (((P o - mean P) * rsqrt (var P + eps) * g o + b o) / 5).
  The result at (r, o) is tail (pre r) o.

  The one algebraic fact used between the two programs is that a sum over the 2048 contracted coordinates is the sum
  over 8 consecutive blocks of 256 of the blocks' sums (`dot_blocks`), which holds in any commutative additive monoid
  and so on the extended reals without any finiteness.
-/
import Idealize.ShloMosaic.PureOps.Ideal
import Idealize.ShloMosaic.Lib.ValueIdx
import proofs.«172903_j18769007084266_1_alg».proof.Proof.LibBlockSum

noncomputable section

namespace Cert.Spec

open Idealize.ShloMosaic Idealize.ShloMosaic.ValueIdx

/-- Arrays of extended reals over the literal shapes of this kernel. -/
abbrev A4096x2048 := (⟨2, ![4096, 2048]⟩ : Shape).Idx → EReal
abbrev A2048x2048 := (⟨2, ![2048, 2048]⟩ : Shape).Idx → EReal
abbrev A2048 := (⟨1, ![2048]⟩ : Shape).Idx → EReal

/-- `v` clamped between the values the two f32 words denote: first raised to the lower one, then lowered to the upper. -/
def clamp (lo hi : BitVec 32) (v : EReal) : EReal := min (Ideal.ofBits .f32 hi) (max (Ideal.ofBits .f32 lo) v)

/-- The input clamped to [-5, 5]. -/
def xc (x : A4096x2048) (r : Fin 4096) (k : Fin 2048) : EReal := clamp 0xC0A00000#32 0x40A00000#32 (x (ix2 r k))

/-- Row `r` of the clamped input against row `o` of a weight matrix, over all 2048 contracted coordinates. -/
def dot (x : A4096x2048) (w : A2048x2048) (r : Fin 4096) (o : Fin 2048) : EReal := ∑ k : Fin 2048, xc x r k * w (ix2 o k)

/-- The same product over the 256 coordinates of block `j` of the contracted axis only (block j = coordinates
    256 j … 256 j + 255). Outside the 8 blocks it is an empty product's junk, never used. -/
def dotBlock (x : A4096x2048) (w : A2048x2048) (r : Fin 4096) (o : Fin 2048) (j : ℕ) : EReal :=
  ∑ l : Fin 256, if h : 256 * j + l.val < 2048 then xc x r ⟨256 * j + l.val, h⟩ * w (ix2 o ⟨256 * j + l.val, h⟩) else 0

/-- The whole contraction is the sum of its 8 blocks' contractions. -/
theorem dot_blocks (x : A4096x2048) (w : A2048x2048) (r : Fin 4096) (o : Fin 2048) :
    dot x w r o = ∑ j ∈ Finset.range 8, dotBlock x w r o j := by
  unfold dot dotBlock
  have h := Cert.Lib.sum_fin_blocks
    (fun n => if h : n < 2048 then xc x r ⟨n, h⟩ * w (ix2 o ⟨n, h⟩) else (0 : EReal)) 8 256
  rw [← h]
  show ∑ k : Fin 2048, _ = ∑ i : Fin 2048, _
  refine Finset.sum_congr rfl fun k _ => ?_
  rw [dif_pos k.isLt]

/-- The pre-activation: the slow product clamped to [-10, 10], plus the two other products, clamped again. -/
def pre (x : A4096x2048) (ws wm wf : A2048x2048) (r : Fin 4096) (o : Fin 2048) : EReal :=
  clamp 0xC1200000#32 0x41200000#32
    (clamp 0xC1200000#32 0x41200000#32 (dot x ws r o) + dot x wm r o + dot x wf r o)

/-- The mean of a row of 2048 entries: their sum divided by the value of the f32 word of 2048. -/
def rowMean (P : Fin 2048 → EReal) : EReal := Ideal.div (∑ o : Fin 2048, P o) (Ideal.ofBits .f32 0x45000000#32)

/-- The variance of a row: the mean of the squared distances to the row's mean. -/
def rowVar (P : Fin 2048 → EReal) : EReal :=
  Ideal.div (∑ o : Fin 2048, (P o - rowMean P) * (P o - rowMean P)) (Ideal.ofBits .f32 0x45000000#32)

/-- A row normalised, scaled and shifted, then squashed: 5 · tanh (· / 5). -/
def tail (P g b : Fin 2048 → EReal) (o : Fin 2048) : EReal :=
  Ideal.ofBits .f32 0x40A00000#32 *
    Ideal.tanh (Ideal.div ((P o - rowMean P) * Ideal.rsqrt (rowVar P + Ideal.ofBits .f32 0x3727C5AC#32) * g o + b o)
      (Ideal.ofBits .f32 0x40A00000#32))

/-- The result array. -/
def G (x : A4096x2048) (ws wm wf : A2048x2048) (g b : A2048) : A4096x2048 := fun i =>
  tail (fun o => pre x ws wm wf (i 0) o) (fun o => g (ix1 o)) (fun o => b (ix1 o)) (i 1)

theorem G_apply (x : A4096x2048) (ws wm wf : A2048x2048) (g b : A2048) (r : Fin 4096) (o : Fin 2048) :
    G x ws wm wf g b (ix2 r o) = tail (fun o' => pre x ws wm wf r o') (fun o' => g (ix1 o')) (fun o' => b (ix1 o')) o := rfl

end Cert.Spec

end
-- ==== Proof.KPieces.lean ====
/-
  What each control case of the kernel's body leaves in the two accumulators and in the output block, as the body's
  own arithmetic of the blocks it loaded.

  The body runs in one of three cases. At the first step of a row block's sweep (case A) both accumulators are stored
  as zero and then updated; in between (case B) and at the last step (case C) they are updated from what the step
  before left. The slow accumulator's update adds the clamped input block times the slow weight block; the other
  accumulator's update adds the sum of the two other products. Only the last step stores the output block: the row
  normalisation of the two accumulators combined.
-/
import proofs.«172903_j18769007084266_1_alg».proof.Proof.Gen.KernelIdeal.Value
import Idealize.ShloMosaic.Lib.Tactic

noncomputable section

namespace Cert.KernelIdeal.KValue

open Cert.KernelIdeal Cert.KernelIdeal.Gen Idealize.ShloMosaic Idealize.ShloMosaic.TcCoe Idealize.SL.Sem

variable {F : FTy → Type} [FloatOps F]

/-- The origin of a two-dimensional block, as the constant zero offset. -/
private theorem origin_eq_zero : (![0, 0] : Fin 2 → Nat) = fun _ => 0 := funext fun a => by fin_cases a <;> rfl

/-- Case A, the slow accumulator: the update over the zero block. -/
theorem slow_A (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x256 .f32) (x1 : Vec F S2048x256 .f32) (x2 : Vec F S2048x256 .f32) (x3 : Vec F S2048x256 .f32) (x4 : Vec F S1x2048 .f32) (x5 : Vec F S1x2048 .f32) :
    sout0_A_0 c i arg2 harg2 arg3 harg3 arg4 harg4 arg5 harg5 arg6 harg6 arg7 harg7 arg8 harg8 arg9 harg9 arg10 harg10 hc0 hc1 x0 x1 x2 x3 x4 x5 = k0_pay7 x0 x1 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2048) origin_eq_zero, View.readCov_unit_zero (S := S512x2048) _ origin_eq_zero]
  simp only [View.readAt_eq_ld, harg2.read_unread, harg3.read_unread, View.ld_unit_zero (S := S512x256) origin_eq_zero, View.ld_unit_zero (S := S2048x256) origin_eq_zero]

/-- Case A, the other accumulator: the update over the zero block. -/
theorem rest_A (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i)
    (x0 : Vec F S512x256 .f32) (x1 : Vec F S2048x256 .f32) (x2 : Vec F S2048x256 .f32) (x3 : Vec F S2048x256 .f32) (x4 : Vec F S1x2048 .f32) (x5 : Vec F S1x2048 .f32) :
    sout0_A_1 c i arg2 harg2 arg3 harg3 arg4 harg4 arg5 harg5 arg6 harg6 arg7 harg7 arg8 harg8 arg9 harg9 arg10 harg10 hc0 hc1 x0 x1 x2 x3 x4 x5 = k0_pay8 x0 x2 x3 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x2048) origin_eq_zero, View.readCov_unit_zero (S := S512x2048) _ origin_eq_zero]
  simp only [View.readAt_eq_ld, harg2.read_unread, harg4.read_unread, harg5.read_unread, View.ld_unit_zero (S := S512x256) origin_eq_zero, View.ld_unit_zero (S := S2048x256) origin_eq_zero]

/-- Case B, the slow accumulator: the update over what the step before left. -/
theorem slow_B (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x256 .f32) (x1 : Vec F S2048x256 .f32) (x2 : Vec F S2048x256 .f32) (x3 : Vec F S2048x256 .f32) (x4 : Vec F S1x2048 .f32) (x5 : Vec F S1x2048 .f32) (xs0 : Vec F S512x2048 .f32) (xs1 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay7 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero origin_eq_zero]
  simp only [View.readAt_eq_ld, harg2.read_unread, harg3.read_unread, harg9.read_unread, View.ld_unit_zero (S := S512x256) origin_eq_zero, View.ld_unit_zero (S := S2048x256) origin_eq_zero, View.ld_unit_zero (S := S512x2048) origin_eq_zero]

/-- Case B, the other accumulator. -/
theorem rest_B (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i)
    (x0 : Vec F S512x256 .f32) (x1 : Vec F S2048x256 .f32) (x2 : Vec F S2048x256 .f32) (x3 : Vec F S2048x256 .f32) (x4 : Vec F S1x2048 .f32) (x5 : Vec F S1x2048 .f32) (xs0 : Vec F S512x2048 .f32) (xs1 : Vec F S512x2048 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay8 x0 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero origin_eq_zero]
  simp only [View.readAt_eq_ld, harg2.read_unread, harg4.read_unread, harg5.read_unread, harg10.read_unread, View.ld_unit_zero (S := S512x256) origin_eq_zero, View.ld_unit_zero (S := S2048x256) origin_eq_zero, View.ld_unit_zero (S := S512x2048) origin_eq_zero]

/-- Case C, the slow accumulator. -/
theorem slow_C (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x256 .f32) (x1 : Vec F S2048x256 .f32) (x2 : Vec F S2048x256 .f32) (x3 : Vec F S2048x256 .f32) (x4 : Vec F S1x2048 .f32) (x5 : Vec F S1x2048 .f32) (xs0 : Vec F S512x2048 .f32) (xs1 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay7 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero origin_eq_zero]
  simp only [View.readAt_eq_ld, harg2.read_unread, harg3.read_unread, harg9.read_unread, View.ld_unit_zero (S := S512x256) origin_eq_zero, View.ld_unit_zero (S := S2048x256) origin_eq_zero, View.ld_unit_zero (S := S512x2048) origin_eq_zero]

/-- Case C, the other accumulator. -/
theorem rest_C (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x256 .f32) (x1 : Vec F S2048x256 .f32) (x2 : Vec F S2048x256 .f32) (x3 : Vec F S2048x256 .f32) (x4 : Vec F S1x2048 .f32) (x5 : Vec F S1x2048 .f32) (xs0 : Vec F S512x2048 .f32) (xs1 : Vec F S512x2048 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay8 x0 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero origin_eq_zero]
  simp only [View.readAt_eq_ld, harg2.read_unread, harg4.read_unread, harg5.read_unread, harg10.read_unread, View.ld_unit_zero (S := S512x256) origin_eq_zero, View.ld_unit_zero (S := S2048x256) origin_eq_zero, View.ld_unit_zero (S := S512x2048) origin_eq_zero]

/-- Case C, the output block: the row normalisation of the two updated accumulators. -/
theorem out_C (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i)
    (x0 : Vec F S512x256 .f32) (x1 : Vec F S2048x256 .f32) (x2 : Vec F S2048x256 .f32) (x3 : Vec F S2048x256 .f32) (x4 : Vec F S1x2048 .f32) (x5 : Vec F S1x2048 .f32) (xs0 : Vec F S512x2048 .f32) (xs1 : Vec F S512x2048 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay1 (k0_pay2 (k0_pay7 x0 x1 xs0) (k0_pay8 x0 x2 x3 xs1) x4 x5) k0_pay3 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero origin_eq_zero]
  simp only [View.readAt_eq_ld, harg2.read_unread, harg3.read_unread, harg4.read_unread, harg5.read_unread, harg6.read_unread, harg7.read_unread, harg9.read_unread, harg10.read_unread, View.ld_unit_zero (S := S512x256) origin_eq_zero, View.ld_unit_zero (S := S2048x256) origin_eq_zero, View.ld_unit_zero (S := S1x2048) origin_eq_zero, View.ld_unit_zero (S := S512x2048) origin_eq_zero, View.readCov_unit_zero (S := S512x2048) _ origin_eq_zero]

end Cert.KernelIdeal.KValue

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KPayloads.lean ====
/-
  The kernel body's arithmetic read entry by entry at the ideal values.

  A change of float format is the identity, a matrix product into a zero accumulator is the sum over the contracted
  coordinate of the products, and a lane sum is the sum over the lane coordinate. So: the zero blocks are 0; an update of
  the slow accumulator adds, at (p, o), the sum over the 256 block coordinates l of clamp5 (x p l) * w o l; the other
  accumulator's update adds the two such sums; and the output block at (p, o) is the specification's row tail of the
  row o' ↦ clamp10 (clamp10 (slow p o') + rest p o').
-/
import proofs.«172903_j18769007084266_1_alg».proof.Proof.Gen.KernelIdeal.Skeleton
import proofs.«172903_j18769007084266_1_alg».proof.Proof.Spec
import proofs.«172903_j18769007084266_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.TcCoe Idealize.ShloMosaic.ValueIdx

/-! ## The pieces the five readings are made of -/

namespace Pay

/-! ### The matrix products -/

/-- The clamped input block in its narrower format, at an entry: the entry clamped to [-5, 5] (the change of format is the identity). -/
theorem pay6_apply (v3 : Vec Ideal S512x256 .f32) (i : S512x256.Idx) :
    k0_pay6 v3 i = Cert.Spec.clamp 0xC0A00000#32 0x40A00000#32 (v3 i) := by
  unfold k0_pay6 Cert.Spec.clamp
  rfl

/-- The left operand's index of the product at output (p, o) and contraction position k: its axis 0 reads p. -/
theorem lhs_dot_0 (j : S512x2048.Idx) (k : dot_S512x256_S2048x256_S512x2048_1_1_0_0_n_n.contr.Idx) :
    (dot_S512x256_S2048x256_S512x2048_1_1_0_0_n_n.lhsIdx j k 0).val = (j 0).val := by
  simp [DotDims.lhsIdx, dot_S512x256_S2048x256_S512x2048_1_1_0_0_n_n]
  rfl

/-- Its axis 1 is the contracted one. -/
theorem lhs_dot_1 (j : S512x2048.Idx) (k : dot_S512x256_S2048x256_S512x2048_1_1_0_0_n_n.contr.Idx) :
    (dot_S512x256_S2048x256_S512x2048_1_1_0_0_n_n.lhsIdx j k 1).val = (k ⟨0, by decide⟩).val :=
  DotDims.lhsIdx_val_of_single dot_S512x256_S2048x256_S512x2048_1_1_0_0_n_n (cl := 1) rfl j k

/-- The right operand's index: its axis 0 reads o. -/
theorem rhs_dot_0 (j : S512x2048.Idx) (k : dot_S512x256_S2048x256_S512x2048_1_1_0_0_n_n.contr.Idx) :
    (dot_S512x256_S2048x256_S512x2048_1_1_0_0_n_n.rhsIdx j k 0).val = (j 1).val := by
  simp [DotDims.rhsIdx, dot_S512x256_S2048x256_S512x2048_1_1_0_0_n_n]
  rfl

/-- Its axis 1 is the contracted one. -/
theorem rhs_dot_1 (j : S512x2048.Idx) (k : dot_S512x256_S2048x256_S512x2048_1_1_0_0_n_n.contr.Idx) :
    (dot_S512x256_S2048x256_S512x2048_1_1_0_0_n_n.rhsIdx j k 1).val = (k ⟨0, by decide⟩).val :=
  DotDims.rhsIdx_val_of_single dot_S512x256_S2048x256_S512x2048_1_1_0_0_n_n (cr := 1) rfl j k

/-- A matrix product into the zero block, at (p, o): the sum over the 256 contracted coordinates l of
    lhs (p, l) * rhs (o, l) (both operands contract their axis 1). -/
theorem dot_zero_apply {φ₁ φ₂ : FTy} (A : FVec Ideal S512x256 φ₁) (B : FVec Ideal S2048x256 φ₂) (p : Fin 512) (o : Fin 2048) :
    matmul dot_S512x256_S2048x256_S512x2048_1_1_0_0_n_n none A B (constant (F := Ideal) S512x2048 .f32 0x00000000#32) (ix2 p o)
      = ∑ l : Fin 256, A (ix2 p l) * B (ix2 o l) := by
  refine (Ideal.matmul_constant_zero_apply dot_S512x256_S2048x256_S512x2048_1_1_0_0_n_n none A B (ix2 p o)).trans ?_
  rw [← Equiv.sum_comp (contrEquiv1 dot_S512x256_S2048x256_S512x2048_1_1_0_0_n_n 256 rfl rfl).symm]
  refine Finset.sum_congr rfl fun l _ => ?_
  have hc := contrEquiv1_symm_val dot_S512x256_S2048x256_S512x2048_1_1_0_0_n_n 256 rfl rfl l
  have hl : dot_S512x256_S2048x256_S512x2048_1_1_0_0_n_n.lhsIdx (ix2 p o)
      ((contrEquiv1 dot_S512x256_S2048x256_S512x2048_1_1_0_0_n_n 256 rfl rfl).symm l) = ix2 p l := by
    funext ax; apply Fin.ext
    match ax with
    | ⟨0, _⟩ => exact lhs_dot_0 _ _
    | ⟨1, _⟩ => exact (lhs_dot_1 _ _).trans hc
  have hr : dot_S512x256_S2048x256_S512x2048_1_1_0_0_n_n.rhsIdx (ix2 p o)
      ((contrEquiv1 dot_S512x256_S2048x256_S512x2048_1_1_0_0_n_n 256 rfl rfl).symm l) = ix2 o l := by
    funext ax; apply Fin.ext
    match ax with
    | ⟨0, _⟩ => exact rhs_dot_0 _ _
    | ⟨1, _⟩ => exact (rhs_dot_1 _ _).trans hc
  rw [hl, hr]

/-- The product of the clamped input block with a weight block, at (p, o). -/
theorem dot_clamped_apply (v3 : Vec Ideal S512x256 .f32) (w : Vec Ideal S2048x256 .f32) (p : Fin 512) (o : Fin 2048) :
    matmul dot_S512x256_S2048x256_S512x2048_1_1_0_0_n_n none (k0_pay6 v3) (truncf .bf16 w bitsLt_bf16_f32)
        (constant (F := Ideal) S512x2048 .f32 0x00000000#32) (ix2 p o)
      = ∑ l : Fin 256, Cert.Spec.clamp 0xC0A00000#32 0x40A00000#32 (v3 (ix2 p l)) * w (ix2 o l) := by
  refine (dot_zero_apply (k0_pay6 v3) (truncf .bf16 w bitsLt_bf16_f32) p o).trans ?_
  refine Finset.sum_congr rfl fun l _ => ?_
  exact congrArg (· * w (ix2 o l)) (pay6_apply v3 (ix2 p l))

/-! ## The output block -/

/-- The lane sum of a [512, 2048] block, at row p: the sum over the row's 2048 entries. -/
theorem laneSum_apply (x : FVec Ideal S512x2048 .f32) (hφ : FKind.Formats .f32)
    (hacc : (0x00000000#32 : BitVec 32) = FKind.add.neutral .f32 hφ) (p : Fin 512) :
    multiReduction (F := Ideal) .add [1] S512 x 0x00000000#32 reduces_S512x2048_S512 hφ hacc (ix1 p)
      = ∑ k : Fin 2048, x (ix2 p k) := by
  refine (Ideal.multiReduction_add_single x 0x00000000#32 reduces_S512x2048_S512 hφ hacc (ix1 p)).trans ?_
  refine Finset.sum_congr rfl fun k _ => ?_
  exact congrArg x (Cert.LibColumn.lift_last_ix2 reduces_S512x2048_S512 p k)

/-- The mean of each row of a block as a one-wide column: the lane sum, kept as a column, divided by 2048. -/
def meanCol (x : FVec Ideal S512x2048 .f32) : FVec Ideal S512x1 .f32 :=
  divf (shapeCast S512x1 (multiReduction .add [1] S512 x 0x00000000#32 reduces_S512x2048_S512 (.inl rfl) rfl) shapeCasts_S512_S512x1)
    (broadcast S512x1 (Scalar.ofBits .f32 0x45000000#32))

/-- The column at row p is the specification's mean of row p. -/
theorem meanCol_apply (x : FVec Ideal S512x2048 .f32) (p : Fin 512) (u : Fin 1) :
    meanCol x (ix2 p u) = Cert.Spec.rowMean (fun o' => x (ix2 p o')) := by
  unfold meanCol Cert.Spec.rowMean
  show Ideal.div (shapeCast S512x1 _ shapeCasts_S512_S512x1 (ix2 p u)) (Ideal.ofBits .f32 0x45000000#32) = _
  refine congrArg (fun t => Ideal.div t (Ideal.ofBits .f32 0x45000000#32)) ?_
  refine (Cert.LibColumn.shapeCast_a_a1_apply _ shapeCasts_S512_S512x1 p u).trans ?_
  exact laneSum_apply x _ _ p

/-- The mean column spread back over the rows: at (p, c) the mean of row p. -/
theorem meanSpread_apply (x : FVec Ideal S512x2048 .f32) (p : Fin 512) (c : Fin 2048) :
    broadcastTo S512x2048 (meanCol x) broadcasts_S512x1_S512x2048 (ix2 p c) = Cert.Spec.rowMean (fun o' => x (ix2 p o')) :=
  (Cert.LibColumn.broadcastTo_a1_ab_apply (meanCol x) broadcasts_S512x1_S512x2048 p c).trans (meanCol_apply x p 0)

/-- A block with each row's mean taken off. -/
def centred (x : FVec Ideal S512x2048 .f32) : FVec Ideal S512x2048 .f32 :=
  subf x (broadcastTo S512x2048 (meanCol x) broadcasts_S512x1_S512x2048)

theorem centred_apply (x : FVec Ideal S512x2048 .f32) (p : Fin 512) (c : Fin 2048) :
    centred x (ix2 p c) = x (ix2 p c) - Cert.Spec.rowMean (fun o' => x (ix2 p o')) :=
  congrArg (x (ix2 p c) - ·) (meanSpread_apply x p c)

/-- The mean column of the centred squares is the specification's variance of the row. -/
theorem varCol_apply (x : FVec Ideal S512x2048 .f32) (p : Fin 512) (u : Fin 1) :
    meanCol (mulf (centred x) (centred x)) (ix2 p u) = Cert.Spec.rowVar (fun o' => x (ix2 p o')) := by
  refine (meanCol_apply (mulf (centred x) (centred x)) p u).trans ?_
  unfold Cert.Spec.rowVar
  show Ideal.div (∑ o' : Fin 2048, centred x (ix2 p o') * centred x (ix2 p o')) (Ideal.ofBits .f32 0x45000000#32) = _
  refine congrArg (fun t => Ideal.div t (Ideal.ofBits .f32 0x45000000#32)) ?_
  refine Finset.sum_congr rfl fun o' _ => ?_
  rw [centred_apply]

/-- The reciprocal root of variance plus eps, as a one-wide column. -/
def rstdCol (x : FVec Ideal S512x2048 .f32) : FVec Ideal S512x1 .f32 :=
  rsqrt (addf (meanCol (mulf (centred x) (centred x))) (broadcast S512x1 (Scalar.ofBits .f32 0x3727C5AC#32)))

theorem rstdSpread_apply (x : FVec Ideal S512x2048 .f32) (p : Fin 512) (c : Fin 2048) :
    broadcastTo S512x2048 (rstdCol x) broadcasts_S512x1_S512x2048 (ix2 p c)
      = Ideal.rsqrt (Cert.Spec.rowVar (fun o' => x (ix2 p o')) + Ideal.ofBits .f32 0x3727C5AC#32) := by
  refine (Cert.LibColumn.broadcastTo_a1_ab_apply (rstdCol x) broadcasts_S512x1_S512x2048 p c).trans ?_
  unfold rstdCol
  show Ideal.rsqrt (meanCol (mulf (centred x) (centred x)) (ix2 p (0 : Fin 1)) + Ideal.ofBits .f32 0x3727C5AC#32) = _
  rw [varCol_apply]

/-- A block normalised row by row, scaled by a row, shifted by a row, divided by 5 and squashed. -/
def normBlk (x : FVec Ideal S512x2048 .f32) (g b : FVec Ideal S1x2048 .f32) : FVec Ideal S512x2048 .f32 :=
  tanh (divf (addf (mulf (mulf (centred x) (broadcastTo S512x2048 (rstdCol x) broadcasts_S512x1_S512x2048))
      (broadcastTo S512x2048 g broadcasts_S1x2048_S512x2048)) (broadcastTo S512x2048 b broadcasts_S1x2048_S512x2048))
    (broadcast S512x2048 (Scalar.ofBits .f32 0x40A00000#32)))

/-- Five times the normalised block, at (p, o): the specification's tail of row p at o. -/
theorem normBlk_apply (x : FVec Ideal S512x2048 .f32) (g b : FVec Ideal S1x2048 .f32) (p : Fin 512) (o : Fin 2048) :
    Ideal.ofBits .f32 0x40A00000#32 * normBlk x g b (ix2 p o)
      = Cert.Spec.tail (fun o' => x (ix2 p o')) (fun o' => g (ix2 (0 : Fin 1) o')) (fun o' => b (ix2 (0 : Fin 1) o')) o := by
  unfold normBlk Cert.Spec.tail
  show Ideal.ofBits .f32 0x40A00000#32 * Ideal.tanh (Ideal.div
      (centred x (ix2 p o) * broadcastTo S512x2048 (rstdCol x) broadcasts_S512x1_S512x2048 (ix2 p o)
          * broadcastTo S512x2048 g broadcasts_S1x2048_S512x2048 (ix2 p o)
        + broadcastTo S512x2048 b broadcasts_S1x2048_S512x2048 (ix2 p o))
      (Ideal.ofBits .f32 0x40A00000#32)) = _
  rw [centred_apply, rstdSpread_apply, broadcastTo_1b_ab_apply, broadcastTo_1b_ab_apply]

/-- The combined accumulators' block, clamped before and after the sum. -/
def rowBlk (v32 v37 : Vec Ideal S512x2048 .f32) : FVec Ideal S512x2048 .f32 :=
  minimumf (broadcast S512x2048 (Scalar.ofBits .f32 0x41200000#32))
    (maximumf (broadcast S512x2048 (Scalar.ofBits .f32 0xC1200000#32))
      (addf (minimumf (broadcast S512x2048 (Scalar.ofBits .f32 0x41200000#32))
        (maximumf (broadcast S512x2048 (Scalar.ofBits .f32 0xC1200000#32)) v32)) v37))

theorem rowBlk_apply (v32 v37 : Vec Ideal S512x2048 .f32) (i : S512x2048.Idx) :
    rowBlk v32 v37 i = Cert.Spec.clamp 0xC1200000#32 0x41200000#32 (Cert.Spec.clamp 0xC1200000#32 0x41200000#32 (v32 i) + v37 i) := by
  unfold rowBlk Cert.Spec.clamp
  rfl

/-- The payload before the final scaling is the normalised block of the clamped combined block. -/
theorem pay2_eq (v32 v37 : Vec Ideal S512x2048 .f32) (v57 v59 : Vec Ideal S1x2048 .f32) :
    k0_pay2 v32 v37 v57 v59 = normBlk (rowBlk v32 v37) v57 v59 := by
  unfold k0_pay2
  simp only [shapeCast_self]
  rfl

end Pay

open Pay

/-! ## The five readings -/

/-- The zero block stored into the slow accumulator. -/
theorem pay4_apply (i : S512x2048.Idx) : (k0_pay4 (F := Ideal)) i = 0 := by
  unfold k0_pay4
  simp only [shapeCast_self]
  exact Ideal.ofBits_zero_f32

/-- The zero block stored into the other accumulator. -/
theorem pay5_apply (i : S512x2048.Idx) : (k0_pay5 (F := Ideal)) i = 0 := by
  unfold k0_pay5
  simp only [shapeCast_self]
  exact Ideal.ofBits_zero_f32

/-- The slow accumulator's update at an entry. -/
theorem pay7_apply (v3 : Vec Ideal S512x256 .f32) (v9 : Vec Ideal S2048x256 .f32) (v15 : Vec Ideal S512x2048 .f32)
    (p : Fin 512) (o : Fin 2048) :
    k0_pay7 v3 v9 v15 (ix2 p o)
      = v15 (ix2 p o) + ∑ l : Fin 256, Cert.Spec.clamp 0xC0A00000#32 0x40A00000#32 (v3 (ix2 p l)) * v9 (ix2 o l) := by
  unfold k0_pay7
  simp only [shapeCast_self]
  exact congrArg (v15 (ix2 p o) + ·) (dot_clamped_apply v3 v9 p o)

/-- The other accumulator's update at an entry. -/
theorem pay8_apply (v3 : Vec Ideal S512x256 .f32) (v11 v13 : Vec Ideal S2048x256 .f32) (v21 : Vec Ideal S512x2048 .f32)
    (p : Fin 512) (o : Fin 2048) :
    k0_pay8 v3 v11 v13 v21 (ix2 p o)
      = v21 (ix2 p o)
        + (∑ l : Fin 256, Cert.Spec.clamp 0xC0A00000#32 0x40A00000#32 (v3 (ix2 p l)) * v11 (ix2 o l)
          + ∑ l : Fin 256, Cert.Spec.clamp 0xC0A00000#32 0x40A00000#32 (v3 (ix2 p l)) * v13 (ix2 o l)) := by
  unfold k0_pay8
  simp only [shapeCast_self]
  exact congrArg (v21 (ix2 p o) + ·) (congrArg₂ (· + ·) (dot_clamped_apply v3 v11 p o) (dot_clamped_apply v3 v13 p o))

/-- The output block at an entry: the row tail of the combined accumulators' row. -/
theorem out_apply (v32 v37 : Vec Ideal S512x2048 .f32) (v57 v59 : Vec Ideal S1x2048 .f32) (p : Fin 512) (o : Fin 2048) :
    k0_pay1 (k0_pay2 v32 v37 v57 v59) k0_pay3 (ix2 p o)
      = Cert.Spec.tail
          (fun o' => Cert.Spec.clamp 0xC1200000#32 0x41200000#32
            (Cert.Spec.clamp 0xC1200000#32 0x41200000#32 (v32 (ix2 p o')) + v37 (ix2 p o')))
          (fun o' => v57 (ix2 (0 : Fin 1) o')) (fun o' => v59 (ix2 (0 : Fin 1) o')) o := by
  rw [pay2_eq]
  unfold k0_pay1 k0_pay3
  show Ideal.ofBits .f32 0x40A00000#32 * normBlk (rowBlk v32 v37) v57 v59 (ix2 p o) = _
  refine (normBlk_apply (rowBlk v32 v37) v57 v59 p o).trans ?_
  refine congrArg (fun P => Cert.Spec.tail P (fun o' => v57 (ix2 (0 : Fin 1) o')) (fun o' => v59 (ix2 (0 : Fin 1) o')) o) ?_
  funext o'
  exact rowBlk_apply v32 v37 (ix2 p o')

end Cert.KernelIdeal.KValue

end
-- ==== Proof.KAccum.lean ====
/-
  The kernel's result array, read off its run.

  The grid has 8 x 8 points; point t sweeps step t % 8 of row block t / 8. At point t the kernel sees rows
  512 (t / 8) … of x and coordinates 256 (t % 8) … of the contracted axis of x and of the three weight matrices, and the
  whole scale and shift rows. By induction over the points, after point t the slow accumulator holds, at (p, o), the sum
  over the blocks j ≤ t % 8 of the block products of row 512 (t / 8) + p of the clamped input with row o of the slow
  weights, and the other accumulator the sum over the same blocks of the two other block products. At a last step
  (t % 8 = 7) all 8 blocks are in, so the sums are the whole contractions, and the output block the kernel stores is the
  specification's row tail of the pre-activation's row. Those are the only points that write the result array back, and
  their blocks (all 2048 columns of 512 rows each) cover it.
-/
import proofs.«172903_j18769007084266_1_alg».proof.Proof.Gen.KernelIdeal.Value
import proofs.«172903_j18769007084266_1_alg».proof.Proof.Spec
import proofs.«172903_j18769007084266_1_alg».proof.Proof.KPieces
import proofs.«172903_j18769007084266_1_alg».proof.Proof.KPayloads
import Idealize.ShloMosaic.Lib.ValueIdx
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps and the blocks -/

/-- The printed index maps over the grid: point t is at row block t / 8 and contraction block t % 8. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

theorem N_eq : cfg0.N = 64 := N_0

/-- The argument arrays, as arrays of extended reals. -/
abbrev aX (c : Dev nD) : Cert.Spec.A4096x2048 := m ((c : Thread nD τ).loc main_arg0)
abbrev aWs (c : Dev nD) : Cert.Spec.A2048x2048 := m ((c : Thread nD τ).loc main_arg1)
abbrev aWm (c : Dev nD) : Cert.Spec.A2048x2048 := m ((c : Thread nD τ).loc main_arg2)
abbrev aWf (c : Dev nD) : Cert.Spec.A2048x2048 := m ((c : Thread nD τ).loc main_arg3)
abbrev aG (c : Dev nD) : Cert.Spec.A2048 := m ((c : Thread nD τ).loc main_arg4)
abbrev aB (c : Dev nD) : Cert.Spec.A2048 := m ((c : Thread nD τ).loc main_arg5)

/-- The blocks the kernel sees at point t, at their literal types. -/
abbrev xblk (c : Dev nD) (t : Fin cfg0.N) : Vec Ideal S512x256 .f32 := iblk m c 0 t
abbrev wsblk (c : Dev nD) (t : Fin cfg0.N) : Vec Ideal S2048x256 .f32 := iblk m c 1 t
abbrev wmblk (c : Dev nD) (t : Fin cfg0.N) : Vec Ideal S2048x256 .f32 := iblk m c 2 t
abbrev wfblk (c : Dev nD) (t : Fin cfg0.N) : Vec Ideal S2048x256 .f32 := iblk m c 3 t
abbrev gblk (c : Dev nD) (t : Fin cfg0.N) : Vec Ideal S1x2048 .f32 := iblk m c 4 t
abbrev bblk (c : Dev nD) (t : Fin cfg0.N) : Vec Ideal S1x2048 .f32 := iblk m c 5 t

/-- The row of x that row p of point t's input block is. -/
def rowOf (t : Fin cfg0.N) (p : Fin 512) : Fin 4096 :=
  ⟨512 * (t.val / 8) + p.val, by have := t.isLt; have := N_eq; have := p.isLt; omega⟩

/-- The contracted coordinate that coordinate l of point t's blocks is. -/
def colOf (t : Fin cfg0.N) (l : Fin 256) : Fin 2048 :=
  ⟨256 * (t.val % 8) + l.val, by have := l.isLt; omega⟩

theorem xblk_apply (c : Dev nD) (t : Fin cfg0.N) (p : Fin 512) (l : Fin 256) :
    xblk m c t (ix2 p l) = aX m c (ix2 (rowOf t p) (colOf t l)) := by
  obtain ⟨e0, e1, -⟩ := idx_facts t
  show V m c main_arg0 (((cfg0.win 0).blk t).view.emb (ix2 p l)) = _
  rw [V_main_arg0]
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 256 + 1 * l.val = 256 * (t.val % 8) + l.val; omega

theorem wsblk_apply (c : Dev nD) (t : Fin cfg0.N) (o : Fin 2048) (l : Fin 256) :
    wsblk m c t (ix2 o l) = aWs m c (ix2 o (colOf t l)) := by
  obtain ⟨-, -, e0, e1, -⟩ := idx_facts t
  show V m c main_arg1 (((cfg0.win 1).blk t).view.emb (ix2 o l)) = _
  rw [V_main_arg1]
  refine congrArg _ (funext fun a => Fin.ext ?_)
  match a with
  | ⟨0, _⟩ => show win0_1.index t (0 : Fin 2) * 2048 + 1 * o.val = o.val; omega
  | ⟨1, _⟩ => show win0_1.index t (1 : Fin 2) * 256 + 1 * l.val = 256 * (t.val % 8) + l.val; omega

theorem wmblk_apply (c : Dev nD) (t : Fin cfg0.N) (o : Fin 2048) (l : Fin 256) :
    wmblk m c t (ix2 o l) = aWm m c (ix2 o (colOf t l)) := by
  obtain ⟨-, -, -, -, e0, e1, -⟩ := idx_facts t
  show V m c main_arg2 (((cfg0.win 2).blk t).view.emb (ix2 o l)) = _
  rw [V_main_arg2]
  refine congrArg _ (funext fun a => Fin.ext ?_)
  match a with
  | ⟨0, _⟩ => show win0_2.index t (0 : Fin 2) * 2048 + 1 * o.val = o.val; omega
  | ⟨1, _⟩ => show win0_2.index t (1 : Fin 2) * 256 + 1 * l.val = 256 * (t.val % 8) + l.val; omega

theorem wfblk_apply (c : Dev nD) (t : Fin cfg0.N) (o : Fin 2048) (l : Fin 256) :
    wfblk m c t (ix2 o l) = aWf m c (ix2 o (colOf t l)) := by
  obtain ⟨-, -, -, -, -, -, e0, e1, -⟩ := idx_facts t
  show V m c main_arg3 (((cfg0.win 3).blk t).view.emb (ix2 o l)) = _
  rw [V_main_arg3]
  refine congrArg _ (funext fun a => Fin.ext ?_)
  match a with
  | ⟨0, _⟩ => show win0_3.index t (0 : Fin 2) * 2048 + 1 * o.val = o.val; omega
  | ⟨1, _⟩ => show win0_3.index t (1 : Fin 2) * 256 + 1 * l.val = 256 * (t.val % 8) + l.val; omega

/-- The scale row the region finds: the scale vector as a [1, 2048] array. -/
theorem V_scale (c : Dev nD) :
    (V m c main_v0 : S1x2048.Idx → EReal) = shapeCast S1x2048 (aG m c) shapeCasts_S2048_S1x2048 := by
  dsimp only [Gen.V, Gen.hostOps0]; after_results; rfl

/-- The shift row the region finds. -/
theorem V_shift (c : Dev nD) :
    (V m c main_v1 : S1x2048.Idx → EReal) = shapeCast S1x2048 (aB m c) shapeCasts_S2048_S1x2048 := by
  dsimp only [Gen.V, Gen.hostOps0]; after_results; rfl

theorem gblk_apply (c : Dev nD) (t : Fin cfg0.N) (o : Fin 2048) :
    gblk m c t (ix2 (0 : Fin 1) o) = aG m c (ix1 o) := by
  obtain ⟨-, -, -, -, -, -, -, -, e0, e1, -⟩ := idx_facts t
  show V m c main_v0 (((cfg0.win 4).blk t).view.emb (ix2 (0 : Fin 1) o)) = _
  rw [V_scale]
  refine (shapeCast_addUnit_apply ![2048] (aG m c) shapeCasts_S2048_S1x2048 _).trans ?_
  refine congrArg _ (funext fun a => Fin.ext ?_)
  match a with
  | ⟨0, _⟩ => show win0_4.index t (1 : Fin 2) * 2048 + 1 * o.val = o.val; omega

theorem bblk_apply (c : Dev nD) (t : Fin cfg0.N) (o : Fin 2048) :
    bblk m c t (ix2 (0 : Fin 1) o) = aB m c (ix1 o) := by
  obtain ⟨-, -, -, -, -, -, -, -, -, -, e0, e1, -⟩ := idx_facts t
  show V m c main_v1 (((cfg0.win 5).blk t).view.emb (ix2 (0 : Fin 1) o)) = _
  rw [V_shift]
  refine (shapeCast_addUnit_apply ![2048] (aB m c) shapeCasts_S2048_S1x2048 _).trans ?_
  refine congrArg _ (funext fun a => Fin.ext ?_)
  match a with
  | ⟨0, _⟩ => show win0_5.index t (1 : Fin 2) * 2048 + 1 * o.val = o.val; omega

/-! ## What each point leaves, from the cases' pieces -/

theorem slow_at_A (c : Dev nD) (t : Fin cfg0.N) (h0 : t.val % 8 = 0) (h1 : ¬t.val % 8 = 7) :
    (outsAt0 m c t.val t.isLt).2.1 = k0_pay7 (xblk m c t) (wsblk m c t) (k0_pay4 (F := Ideal)) := by
  rw [outsAt0_A m c t h0 h1]; dsimp only
  exact slow_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem rest_at_A (c : Dev nD) (t : Fin cfg0.N) (h0 : t.val % 8 = 0) (h1 : ¬t.val % 8 = 7) :
    (outsAt0 m c t.val t.isLt).2.2 = k0_pay8 (xblk m c t) (wmblk m c t) (wfblk m c t) (k0_pay5 (F := Ideal)) := by
  rw [outsAt0_A m c t h0 h1]; dsimp only
  exact rest_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem slow_at_step (c : Dev nD) (t : Fin cfg0.N) (h0 : ¬t.val % 8 = 0) :
    (outsAt0 m c t.val t.isLt).2.1 = k0_pay7 (xblk m c t) (wsblk m c t) (outsAt0 m c (t.val - 1) (Nat.lt_of_le_of_lt (Nat.sub_le _ _) t.isLt)).2.1 := by
  by_cases h1 : t.val % 8 = 7
  · rw [outsAt0_C m c t h0 h1]; dsimp only
    exact slow_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact slow_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

theorem rest_at_step (c : Dev nD) (t : Fin cfg0.N) (h0 : ¬t.val % 8 = 0) :
    (outsAt0 m c t.val t.isLt).2.2 = k0_pay8 (xblk m c t) (wmblk m c t) (wfblk m c t) (outsAt0 m c (t.val - 1) (Nat.lt_of_le_of_lt (Nat.sub_le _ _) t.isLt)).2.2 := by
  by_cases h1 : t.val % 8 = 7
  · rw [outsAt0_C m c t h0 h1]; dsimp only
    exact rest_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact rest_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-- At a last step the output block is the row normalisation of the two accumulators as that step leaves them. -/
theorem out_at_last (c : Dev nD) (t : Fin cfg0.N) (h0 : ¬t.val % 8 = 0) (h1 : t.val % 8 = 7) :
    (outsAt0 m c t.val t.isLt).1
      = k0_pay1 (k0_pay2 ((outsAt0 m c t.val t.isLt).2.1) ((outsAt0 m c t.val t.isLt).2.2) (gblk m c t) (bblk m c t)) k0_pay3 := by
  rw [slow_at_step m c t h0, rest_at_step m c t h0, outsAt0_C m c t h0 h1]; dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2

/-! ## The accumulators after each point -/

/-- The block product an accumulator's update adds at point t: at (p, o), block t % 8 of the contraction of row
    512 (t / 8) + p of the clamped input with row o of the weight matrix whose block the kernel sees. -/
theorem blockTerm (c : Dev nD) (t : Fin cfg0.N) (w : Vec Ideal S2048x256 .f32) (W : Cert.Spec.A2048x2048)
    (hw : ∀ (o : Fin 2048) (l : Fin 256), w (ix2 o l) = W (ix2 o (colOf t l))) (p : Fin 512) (o : Fin 2048) :
    ∑ l : Fin 256, Cert.Spec.clamp 0xC0A00000#32 0x40A00000#32 (xblk m c t (ix2 p l)) * w (ix2 o l)
      = Cert.Spec.dotBlock (aX m c) W (rowOf t p) o (t.val % 8) := by
  unfold Cert.Spec.dotBlock
  refine Finset.sum_congr rfl fun l _ => ?_
  have hl : 256 * (t.val % 8) + l.val < 2048 := (colOf t l).isLt
  rw [dif_pos hl, xblk_apply, hw]
  rfl

theorem slow_entry_A (c : Dev nD) (t : Fin cfg0.N) (h0 : t.val % 8 = 0) (p : Fin 512) (o : Fin 2048) :
    (outsAt0 m c t.val t.isLt).2.1 (ix2 p o)
      = Cert.Spec.dotBlock (aX m c) (aWs m c) (rowOf t p) o (t.val % 8) := by
  have h1 : ¬t.val % 8 = 7 := by omega
  rw [slow_at_A m c t h0 h1, pay7_apply, pay4_apply, zero_add]
  exact blockTerm m c t (wsblk m c t) (aWs m c) (wsblk_apply m c t) p o

theorem rest_entry_A (c : Dev nD) (t : Fin cfg0.N) (h0 : t.val % 8 = 0) (p : Fin 512) (o : Fin 2048) :
    (outsAt0 m c t.val t.isLt).2.2 (ix2 p o)
      = Cert.Spec.dotBlock (aX m c) (aWm m c) (rowOf t p) o (t.val % 8)
        + Cert.Spec.dotBlock (aX m c) (aWf m c) (rowOf t p) o (t.val % 8) := by
  have h1 : ¬t.val % 8 = 7 := by omega
  rw [rest_at_A m c t h0 h1, pay8_apply, pay5_apply, zero_add,
    blockTerm m c t (wmblk m c t) (aWm m c) (wmblk_apply m c t) p o,
    blockTerm m c t (wfblk m c t) (aWf m c) (wfblk_apply m c t) p o]

theorem slow_entry_step (c : Dev nD) (t : Fin cfg0.N) (h0 : ¬t.val % 8 = 0) (p : Fin 512) (o : Fin 2048) :
    (outsAt0 m c t.val t.isLt).2.1 (ix2 p o)
      = (outsAt0 m c (t.val - 1) (Nat.lt_of_le_of_lt (Nat.sub_le _ _) t.isLt)).2.1 (ix2 p o) + Cert.Spec.dotBlock (aX m c) (aWs m c) (rowOf t p) o (t.val % 8) := by
  rw [slow_at_step m c t h0, pay7_apply]
  exact congrArg _ (blockTerm m c t (wsblk m c t) (aWs m c) (wsblk_apply m c t) p o)

theorem rest_entry_step (c : Dev nD) (t : Fin cfg0.N) (h0 : ¬t.val % 8 = 0) (p : Fin 512) (o : Fin 2048) :
    (outsAt0 m c t.val t.isLt).2.2 (ix2 p o)
      = (outsAt0 m c (t.val - 1) (Nat.lt_of_le_of_lt (Nat.sub_le _ _) t.isLt)).2.2 (ix2 p o)
        + (Cert.Spec.dotBlock (aX m c) (aWm m c) (rowOf t p) o (t.val % 8)
          + Cert.Spec.dotBlock (aX m c) (aWf m c) (rowOf t p) o (t.val % 8)) := by
  rw [rest_at_step m c t h0, pay8_apply,
    blockTerm m c t (wmblk m c t) (aWm m c) (wmblk_apply m c t) p o,
    blockTerm m c t (wfblk m c t) (aWf m c) (wfblk_apply m c t) p o]

/-- After point n the slow accumulator holds the sum of the blocks 0 … n % 8 of the slow contraction, and the other
    accumulator the sum over the same blocks of the two other contractions' blocks: by induction on the point. -/
theorem acc_eq (c : Dev nD) : ∀ (n : ℕ) (h : n < cfg0.N) (p : Fin 512) (o : Fin 2048),
    (outsAt0 m c n h).2.1 (ix2 p o)
        = ∑ j ∈ Finset.range (n % 8 + 1), Cert.Spec.dotBlock (aX m c) (aWs m c) (rowOf ⟨n, h⟩ p) o j
    ∧ (outsAt0 m c n h).2.2 (ix2 p o)
        = ∑ j ∈ Finset.range (n % 8 + 1), (Cert.Spec.dotBlock (aX m c) (aWm m c) (rowOf ⟨n, h⟩ p) o j
            + Cert.Spec.dotBlock (aX m c) (aWf m c) (rowOf ⟨n, h⟩ p) o j)
  | 0, h, p, o => by
    have e1 : (outsAt0 m c 0 h).2.1 (ix2 p o)
        = Cert.Spec.dotBlock (aX m c) (aWs m c) (rowOf ⟨0, h⟩ p) o 0 := slow_entry_A m c ⟨0, h⟩ (Nat.zero_mod 8) p o
    have e2 : (outsAt0 m c 0 h).2.2 (ix2 p o)
        = Cert.Spec.dotBlock (aX m c) (aWm m c) (rowOf ⟨0, h⟩ p) o 0
          + Cert.Spec.dotBlock (aX m c) (aWf m c) (rowOf ⟨0, h⟩ p) o 0 := rest_entry_A m c ⟨0, h⟩ (Nat.zero_mod 8) p o
    rw [Nat.zero_mod, Nat.zero_add, Finset.sum_range_one, Finset.sum_range_one]
    exact ⟨e1, e2⟩
  | n + 1, h, p, o => by
    have hN : n + 1 < 64 := lt_of_lt_of_eq h N_eq
    by_cases h0 : (n + 1) % 8 = 0
    · have e1 : (outsAt0 m c (n + 1) h).2.1 (ix2 p o)
          = Cert.Spec.dotBlock (aX m c) (aWs m c) (rowOf ⟨n + 1, h⟩ p) o ((n + 1) % 8) := slow_entry_A m c ⟨n + 1, h⟩ h0 p o
      have e2 : (outsAt0 m c (n + 1) h).2.2 (ix2 p o)
          = Cert.Spec.dotBlock (aX m c) (aWm m c) (rowOf ⟨n + 1, h⟩ p) o ((n + 1) % 8)
            + Cert.Spec.dotBlock (aX m c) (aWf m c) (rowOf ⟨n + 1, h⟩ p) o ((n + 1) % 8) := rest_entry_A m c ⟨n + 1, h⟩ h0 p o
      rw [h0] at e1 e2
      rw [h0, Nat.zero_add, Finset.sum_range_one, Finset.sum_range_one]
      exact ⟨e1, e2⟩
    · have hm : (n + 1) % 8 = n % 8 + 1 := by omega
      have hd : (n + 1) / 8 = n / 8 := by omega
      have hrow : rowOf ⟨n + 1, h⟩ p = rowOf ⟨n, Nat.lt_of_succ_lt h⟩ p :=
        Fin.ext (by show 512 * ((n + 1) / 8) + p.val = 512 * (n / 8) + p.val; rw [hd])
      obtain ⟨i1, i2⟩ := acc_eq c n (Nat.lt_of_succ_lt h) p o
      have e1 : (outsAt0 m c (n + 1) h).2.1 (ix2 p o)
          = (outsAt0 m c n (Nat.lt_of_succ_lt h)).2.1 (ix2 p o)
            + Cert.Spec.dotBlock (aX m c) (aWs m c) (rowOf ⟨n + 1, h⟩ p) o ((n + 1) % 8) :=
        slow_entry_step m c ⟨n + 1, h⟩ h0 p o
      have e2 : (outsAt0 m c (n + 1) h).2.2 (ix2 p o)
          = (outsAt0 m c n (Nat.lt_of_succ_lt h)).2.2 (ix2 p o)
            + (Cert.Spec.dotBlock (aX m c) (aWm m c) (rowOf ⟨n + 1, h⟩ p) o ((n + 1) % 8)
              + Cert.Spec.dotBlock (aX m c) (aWf m c) (rowOf ⟨n + 1, h⟩ p) o ((n + 1) % 8)) :=
        rest_entry_step m c ⟨n + 1, h⟩ h0 p o
      rw [hm, Finset.sum_range_succ _ (n % 8 + 1), Finset.sum_range_succ _ (n % 8 + 1), hrow]
      rw [hm, hrow, i1] at e1
      rw [hm, hrow, i2] at e2
      exact ⟨e1, e2⟩

/-! ## The last step's output block, and the result array -/

/-- At a last step the two accumulators combine to the pre-activation's row: all 8 blocks are in, the sum of the blocks
    is the whole contraction, and a sum of sums is the sum of the two sums. -/
theorem pre_at_last (c : Dev nD) (t : Fin cfg0.N) (h7 : t.val % 8 = 7) (p : Fin 512) (o : Fin 2048) :
    Cert.Spec.clamp 0xC1200000#32 0x41200000#32
        (Cert.Spec.clamp 0xC1200000#32 0x41200000#32 ((outsAt0 m c t.val t.isLt).2.1 (ix2 p o))
          + (outsAt0 m c t.val t.isLt).2.2 (ix2 p o))
      = Cert.Spec.pre (aX m c) (aWs m c) (aWm m c) (aWf m c) (rowOf t p) o := by
  obtain ⟨e1, e2⟩ := acc_eq m c t.val t.isLt p o
  rw [e1, e2, h7]
  unfold Cert.Spec.pre
  rw [Cert.Spec.dot_blocks, Cert.Spec.dot_blocks, Cert.Spec.dot_blocks, Finset.sum_add_distrib, add_assoc]

/-- What a last step writes back is its block of the specification's array. -/
theorem flushed_eq (c : Dev nD) (t : Fin cfg0.N) (hf : (cfg0.win 6).flush t = true) :
    (dats m 0 c).flushed 6 t
      = ((cfg0.win 6).blk t).view.read (Elt Ideal)
          (Cert.Spec.G (aX m c) (aWs m c) (aWm m c) (aWf m c) (aG m c) (aB m c)) := by
  have h7 : t.val % 8 = 7 := (flush0_6 t).mp hf
  have h0 : ¬t.val % 8 = 0 := by omega
  obtain ⟨-, -, -, -, -, -, -, -, -, -, -, -, e0, e1⟩ := idx_facts t
  rw [Cert.KernelIdeal.Value.flushed6]
  funext j
  obtain ⟨p, o, rfl⟩ : ∃ (p : Fin 512) (o : Fin 2048), j = ix2 p o := ⟨j 0, j 1, eq_ix2 j⟩
  show (outsAt0 m c t.val t.isLt).1 (ix2 p o)
    = Cert.Spec.G (aX m c) (aWs m c) (aWm m c) (aWf m c) (aG m c) (aB m c) (((cfg0.win 6).blk t).view.emb (ix2 p o))
  have hemb : ((cfg0.win 6).blk t).view.emb (ix2 p o) = ix2 (rowOf t p) o := by
    funext a; apply Fin.ext
    match a with
    | ⟨0, _⟩ => show win0_6.index t (0 : Fin 2) * 512 + 1 * p.val = 512 * (t.val / 8) + p.val; omega
    | ⟨1, _⟩ => show win0_6.index t (1 : Fin 2) * 2048 + 1 * o.val = o.val; omega
  rw [hemb, Cert.Spec.G_apply, out_at_last m c t h0 h7, out_apply]
  congr 1
  · funext o'; exact pre_at_last m c t h7 p o'
  · funext o'; exact gblk_apply m c t o'
  · funext o'; exact bblk_apply m c t o'

/-- Every entry of the result array lies in the block of the last step of its row block. -/
theorem covered (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  let t : Fin cfg0.N := ⟨8 * ((i 0).val / 512) + 7, by rw [N_eq]; omega⟩
  have ht : t.val = 8 * ((i 0).val / 512) + 7 := rfl
  obtain ⟨-, -, -, -, -, -, -, -, -, -, -, -, e0, e1⟩ := idx_facts t
  refine ⟨t, (flush0_6 t).mpr (by omega), ?_⟩
  show i ∈ ((View.whole main_v2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- The result array after the run is the specification's array of the arguments. -/
theorem final (c : Dev nD) :
    (dats m 0 c).arrAt 6 cfg0.N = Cert.Spec.G (aX m c) (aWs m c) (aWm m c) (aWf m c) (aG m c) (aB m c) :=
  (dats m 0 c).arrAt_eq_of_cover 6 _ (flushed_eq m c) covered

/-- The kernel's run, read: the result at the specification's array of the arguments, the arguments unchanged. -/
theorem run : θ_run defs (onTc (τ := τ) (main (F := Ideal))) ⟨m, fun _ => 0, ρ⟩ fun r => ∀ c : Dev nD,
      r.2.mem ((c : Thread nD τ).loc main_v2)
        = Cert.Spec.G (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.KernelIdeal.KValue

end
-- ==== Proof.RefTerm.lean ====
/-
  What the reference computes, as one pure term of its argument arrays.

  The reference clamps x to [-5, 5], multiplies it with each of the three weight matrices transposed, clamps the
  first product to [-10, 10], adds the other two and clamps again (the pre-activation `preAct`). On every row of the
  pre-activation it takes the mean (`rowMeans`: the row's sum over 2048) and the variance (`rowVars`: the sum of the
  squared distances to the mean over 2048 minus the zero correction, selected where that divisor is positive), and
  returns 5 * tanh (((P - mean) * rsqrt (var + eps) * g + b) / 5) (`refOut`). Everything else the reference computes
  (the statistics controller) does not enter its result.
-/
import proofs.«172903_j18769007084266_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- Every entry clamped between the values of two f32 words: raised to the lower, then lowered to the upper. -/
def clipAll (lo hi : BitVec 32) (a : FVec F S4096x2048 .f32) : FVec F S4096x2048 .f32 :=
  minimumf (broadcastInDim S4096x2048 ![] bcast_S_S4096x2048 (id (constant S_ .f32 hi)))
    (maximumf (broadcastInDim S4096x2048 ![] bcast_S_S4096x2048 (id (constant S_ .f32 lo))) a)

/-- `a` times the transpose of `w`: entry (r, o) contracts row r of `a` with row o of `w`. -/
def mulT (a : FVec F S4096x2048 .f32) (w : FVec F S2048x2048 .f32) : FVec F S4096x2048 .f32 :=
  Host.dotGeneral dot_S4096x2048_S2048x2048_S4096x2048_1_0_0_1_n_n none a
    (transpose S2048x2048 [1, 0] w transposes_S2048x2048_S2048x2048_1_0)

/-- The pre-activation. -/
def preAct (x : FVec F S4096x2048 .f32) (ws wm wf : FVec F S2048x2048 .f32) : FVec F S4096x2048 .f32 :=
  clipAll 0xC1200000#32 0x41200000#32
    (addf (addf (clipAll 0xC1200000#32 0x41200000#32 (mulT (clipAll 0xC0A00000#32 0x40A00000#32 x) ws))
      (mulT (clipAll 0xC0A00000#32 0x40A00000#32 x) wm)) (mulT (clipAll 0xC0A00000#32 0x40A00000#32 x) wf))

/-- The rows' means, as a column. -/
def rowMeans (p : FVec F S4096x2048 .f32) : FVec F S4096x1 .f32 :=
  Host.divf
    (broadcastInDim S4096x1 ![0] bcast_S4096_S4096x1_0
      (Host.reduceAdd p (constant S_ .f32 0x00000000#32) reducesTo_S4096x2048_S4096_d1 h_S_))
    (broadcastInDim S4096x1 ![] bcast_S_S4096x1 (constant S_ .f32 0x45000000#32))

/-- The variance's divisor: the row length less the (zero) correction. -/
def varDivisor : FVec F S_ .f32 := subf (constant S_ .f32 0x45000000#32) (sitofp .f32 (constantI S_ 32 0#32))

/-- The rows' variances, as a column. -/
def rowVars (p : FVec F S4096x2048 .f32) : FVec F S4096x1 .f32 :=
  select (broadcastInDim S4096x1 ![] bcast_S_S4096x1 (cmpf .ogt (varDivisor (F := F)) (constant S_ .f32 0x00000000#32)))
    (Host.divf
      (broadcastInDim S4096x1 ![0] bcast_S4096_S4096x1_0
        (Host.reduceAdd
          (mulf (subf p (broadcastInDim S4096x2048 ![0, 1] bcast_S4096x1_S4096x2048_0_1 (rowMeans p)))
            (subf p (broadcastInDim S4096x2048 ![0, 1] bcast_S4096x1_S4096x2048_0_1 (rowMeans p))))
          (constant S_ .f32 0x00000000#32) reducesTo_S4096x2048_S4096_d1 h_S_))
      (broadcastInDim S4096x1 ![] bcast_S_S4096x1 (varDivisor (F := F))))
    (broadcastInDim S4096x1 ![] bcast_S_S4096x1 (id (constant S_ .f32 0x7FC00000#32)))

/-- A vector of 2048 entries laid along every row. -/
def alongRows (v : FVec F S2048 .f32) : FVec F S4096x2048 .f32 :=
  broadcastInDim S4096x2048 ![0, 1] bcast_S1x2048_S4096x2048_0_1 (broadcastInDim S1x2048 ![1] bcast_S2048_S1x2048_1 v)

/-- The reference's result. -/
def refOut (x : FVec F S4096x2048 .f32) (ws wm wf : FVec F S2048x2048 .f32) (g b : FVec F S2048 .f32) :
    FVec F S4096x2048 .f32 :=
  mulf (broadcastInDim S4096x2048 ![] bcast_S_S4096x2048 (constant S_ .f32 0x40A00000#32))
    (Host.tanh
      (Host.divf
        (addf
          (mulf
            (mulf
              (subf (preAct x ws wm wf)
                (broadcastInDim S4096x2048 ![0, 1] bcast_S4096x1_S4096x2048_0_1 (rowMeans (preAct x ws wm wf))))
              (broadcastInDim S4096x2048 ![0, 1] bcast_S4096x1_S4096x2048_0_1
                (Host.rsqrt (addf (rowVars (preAct x ws wm wf))
                  (broadcastInDim S4096x1 ![] bcast_S_S4096x1 (constant S_ .f32 0x3727C5AC#32))))))
            (alongRows g))
          (alongRows b))
        (broadcastInDim S4096x2048 ![] bcast_S_S4096x2048 (constant S_ .f32 0x40A00000#32))))

end Cert.ReferenceIdeal.RefValue

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  The reference's run: its @main is a straight line of host operations (the functions it calls unfolded at their
  calls), so every weakly fair execution terminates, with the result buffer at `refOut` of the arguments and the
  arguments unchanged.

  The line is cut in five stretches. The first ends at the pre-activation; the second and the third hold the statistics
  controller, which the result does not read; the fourth and the fifth compute the result from the pre-activation and
  the two vectors of 2048 entries. Each stretch comes with the list of the buffers it writes, so that a buffer outside
  the list is known to keep its contents through the stretch.
-/
import proofs.«172903_j18769007084266_1_alg».proof.Proof.RefTerm
import proofs.«172903_j18769007084266_1_alg».proof.Proof.LibAfter
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

namespace RefRun

/-! ## The operations, in order -/

/-- The first stretch: x clamped, the three products with the transposed weights, the first clamped, the sums, the
    clamp of the sum — the pre-activation, in `main_v10`. -/
abbrev opsA : List (HloOp τ sig (Elt F)) :=
  [ nullary main_cst (constant S_ .f32 0xC0A00000#32),
    nullary main_cst_0 (constant S_ .f32 0x40A00000#32),
    TRef.unary (.of main_cst : TRef sig ⟨S_, .f32⟩) main_call0.v0 id,
    TRef.unary main_call0.v0 main_call0.v1 (broadcastInDim S4096x2048 ![] bcast_S_S4096x2048),
    TRef.binary main_call0.v1 (.of main_arg0 : TRef sig ⟨S4096x2048, .f32⟩) main_call0.v2 maximumf,
    TRef.unary (.of main_cst_0 : TRef sig ⟨S_, .f32⟩) main_call0.v3 id,
    TRef.unary main_call0.v3 main_call0.v4 (broadcastInDim S4096x2048 ![] bcast_S_S4096x2048),
    TRef.binary main_call0.v4 main_call0.v2 main_call0.v5 minimumf,
    unary main_arg1 main_v1 (transpose S2048x2048 [1, 0] · transposes_S2048x2048_S2048x2048_1_0),
    binary main_v0 main_v1 main_v2 (fun l r => Host.dotGeneral dot_S4096x2048_S2048x2048_S4096x2048_1_0_0_1_n_n none l r),
    nullary main_cst_1 (constant S_ .f32 0xC1200000#32),
    nullary main_cst_2 (constant S_ .f32 0x41200000#32),
    TRef.unary (.of main_cst_1 : TRef sig ⟨S_, .f32⟩) main_call1.v0 id,
    TRef.unary main_call1.v0 main_call1.v1 (broadcastInDim S4096x2048 ![] bcast_S_S4096x2048),
    TRef.binary main_call1.v1 (.of main_v2 : TRef sig ⟨S4096x2048, .f32⟩) main_call1.v2 maximumf,
    TRef.unary (.of main_cst_2 : TRef sig ⟨S_, .f32⟩) main_call1.v3 id,
    TRef.unary main_call1.v3 main_call1.v4 (broadcastInDim S4096x2048 ![] bcast_S_S4096x2048),
    TRef.binary main_call1.v4 main_call1.v2 main_call1.v5 minimumf,
    unary main_arg2 main_v4 (transpose S2048x2048 [1, 0] · transposes_S2048x2048_S2048x2048_1_0),
    binary main_v0 main_v4 main_v5 (fun l r => Host.dotGeneral dot_S4096x2048_S2048x2048_S4096x2048_1_0_0_1_n_n none l r),
    binary main_v3 main_v5 main_v6 addf,
    unary main_arg3 main_v7 (transpose S2048x2048 [1, 0] · transposes_S2048x2048_S2048x2048_1_0),
    binary main_v0 main_v7 main_v8 (fun l r => Host.dotGeneral dot_S4096x2048_S2048x2048_S4096x2048_1_0_0_1_n_n none l r),
    binary main_v6 main_v8 main_v9 addf,
    nullary main_cst_3 (constant S_ .f32 0xC1200000#32),
    nullary main_cst_4 (constant S_ .f32 0x41200000#32),
    TRef.unary (.of main_cst_3 : TRef sig ⟨S_, .f32⟩) main_call2.v0 id,
    TRef.unary main_call2.v0 main_call2.v1 (broadcastInDim S4096x2048 ![] bcast_S_S4096x2048),
    TRef.binary main_call2.v1 (.of main_v9 : TRef sig ⟨S4096x2048, .f32⟩) main_call2.v2 maximumf,
    TRef.unary (.of main_cst_4 : TRef sig ⟨S_, .f32⟩) main_call2.v3 id,
    TRef.unary main_call2.v3 main_call2.v4 (broadcastInDim S4096x2048 ![] bcast_S_S4096x2048),
    TRef.binary main_call2.v4 main_call2.v2 main_call2.v5 minimumf ]

/-- The second stretch: the rows' means and standard deviations for the statistics controller, the two running
    averages and their clamps. The result reads none of it. -/
abbrev opsB : List (HloOp τ sig (Elt F)) :=
  [ nullary main_cst_5 (constant S_ .f32 0x00000000#32),
    binary main_v10 main_cst_5 main_v11 (fun x v => Host.reduceAdd x v reducesTo_S4096x2048_S4096_d1 h_S_),
    unary main_v11 main_v12 (broadcastInDim S4096x1 ![0] bcast_S4096_S4096x1_0),
    nullary main_cst_6 (constant S_ .f32 0x45000000#32),
    unary main_cst_6 main_v13 (broadcastInDim S4096x1 ![] bcast_S_S4096x1),
    binary main_v12 main_v13 main_v14 Host.divf,
    nullary main_c (constantI S_ 32 0#32),
    TRef.nullary main_call3_call0.cst (constant S_ .f32 0x00000000#32),
    TRef.binary (.of main_v10 : TRef sig ⟨S4096x2048, .f32⟩) main_call3_call0.cst main_call3_call0.v0 (fun x v => Host.reduceAdd x v reducesTo_S4096x2048_S4096_d1 h_S_),
    TRef.unary main_call3_call0.v0 main_call3_call0.v1 (broadcastInDim S4096x1 ![0] bcast_S4096_S4096x1_0),
    TRef.nullary main_call3_call0.cst_0 (constant S_ .f32 0x45000000#32),
    TRef.unary main_call3_call0.cst_0 main_call3_call0.v2 (broadcastInDim S4096x1 ![] bcast_S_S4096x1),
    TRef.binary main_call3_call0.v1 main_call3_call0.v2 main_call3_call0.v3 Host.divf,
    TRef.unary main_call3_call0.v3 main_call3_call0.v4 (broadcastInDim S4096x2048 ![0, 1] bcast_S4096x1_S4096x2048_0_1),
    TRef.binary (.of main_v10 : TRef sig ⟨S4096x2048, .f32⟩) main_call3_call0.v4 main_call3_call0.v5 subf,
    TRef.binary main_call3_call0.v5 main_call3_call0.v5 main_call3_call0.v6 mulf,
    TRef.unary (.of main_c : TRef sig ⟨S_, .i32⟩) main_call3_call0.v7 (sitofp .f32),
    TRef.nullary main_call3_call0.cst_1 (constant S_ .f32 0x45000000#32),
    TRef.binary main_call3_call0.cst_1 main_call3_call0.v7 main_call3_call0.v8 subf,
    TRef.nullary main_call3_call0.cst_2 (constant S_ .f32 0x00000000#32),
    TRef.binary main_call3_call0.v6 main_call3_call0.cst_2 main_call3_call0.v9 (fun x v => Host.reduceAdd x v reducesTo_S4096x2048_S4096_d1 h_S_),
    TRef.unary main_call3_call0.v9 main_call3_call0.v10 (broadcastInDim S4096x1 ![0] bcast_S4096_S4096x1_0),
    TRef.unary main_call3_call0.v8 main_call3_call0.v11 (broadcastInDim S4096x1 ![] bcast_S_S4096x1),
    TRef.binary main_call3_call0.v10 main_call3_call0.v11 main_call3_call0.v12 Host.divf,
    TRef.nullary main_call3_call0.cst_3 (constant S_ .f32 0x00000000#32),
    TRef.binary main_call3_call0.v8 main_call3_call0.cst_3 main_call3_call0.v13 (cmpf .ogt),
    TRef.nullary main_call3_call0.cst_4 (constant S_ .f32 0x7FC00000#32),
    TRef.unary main_call3_call0.cst_4 main_call3_call0_call0.v0 id,
    TRef.unary main_call3_call0_call0.v0 main_call3_call0_call0.v1 (broadcastInDim S4096x1 ![] bcast_S_S4096x1),
    TRef.ternary main_call3_call0.v13 main_call3_call0.v12 main_call3_call0_call0.v1 main_call3_call0_call0.v2 (fun p a b => select (broadcastInDim S4096x1 ![] bcast_S_S4096x1 p) a b),
    TRef.unary main_call3_call0_call0.v2 main_call3.v1 Host.sqrt,
    nullary main_cst_7 (constant S_ .f32 0x358637BD#32),
    unary main_cst_7 main_v16 (broadcastInDim S4096x1 ![] bcast_S_S4096x1),
    binary main_v15 main_v16 main_v17 maximumf,
    nullary main_cst_8 (constant S_ .f32 0x3F733333#32),
    unary main_cst_8 main_v18 (broadcastInDim S1 ![] bcast_S_S1),
    binary main_v18 main_arg10 main_v19 mulf,
    nullary main_cst_9 (constant S_ .f32 0x00000000#32),
    binary main_v14 main_cst_9 main_v20 (fun x v => Host.reduceAdd x v reducesTo_S4096x1_S_d0_1 h_S_),
    nullary main_cst_10 (constant S_ .f32 0x45800000#32),
    binary main_v20 main_cst_10 main_v21 Host.divf,
    nullary main_cst_11 (constant S_ .f32 0x3D4CCCCD#32),
    binary main_cst_11 main_v21 main_v22 mulf,
    unary main_v22 main_v23 (broadcastInDim S1 ![] bcast_S_S1),
    binary main_v19 main_v23 main_v24 addf,
    nullary main_cst_12 (constant S_ .f32 0xBF000000#32),
    nullary main_cst_13 (constant S_ .f32 0x3F000000#32),
    TRef.unary (.of main_cst_12 : TRef sig ⟨S_, .f32⟩) main_call4.v0 id,
    TRef.unary main_call4.v0 main_call4.v1 (broadcastInDim S1 ![] bcast_S_S1),
    TRef.binary main_call4.v1 (.of main_v24 : TRef sig ⟨S1, .f32⟩) main_call4.v2 maximumf,
    TRef.unary (.of main_cst_13 : TRef sig ⟨S_, .f32⟩) main_call4.v3 id,
    TRef.unary main_call4.v3 main_call4.v4 (broadcastInDim S1 ![] bcast_S_S1),
    TRef.binary main_call4.v4 main_call4.v2 main_call4.v5 minimumf,
    nullary main_cst_14 (constant S_ .f32 0x3F733333#32),
    unary main_cst_14 main_v26 (broadcastInDim S1 ![] bcast_S_S1),
    binary main_v26 main_arg11 main_v27 mulf,
    nullary main_cst_15 (constant S_ .f32 0x00000000#32),
    binary main_v17 main_cst_15 main_v28 (fun x v => Host.reduceAdd x v reducesTo_S4096x1_S_d0_1 h_S_),
    nullary main_cst_16 (constant S_ .f32 0x45800000#32),
    binary main_v28 main_cst_16 main_v29 Host.divf,
    nullary main_cst_17 (constant S_ .f32 0x3D4CCCCD#32),
    binary main_cst_17 main_v29 main_v30 mulf,
    unary main_v30 main_v31 (broadcastInDim S1 ![] bcast_S_S1),
    binary main_v27 main_v31 main_v32 addf,
    nullary main_cst_18 (constant S_ .f32 0x3DCCCCCD#32),
    nullary main_cst_19 (constant S_ .f32 0x3FC00000#32),
    TRef.unary (.of main_cst_18 : TRef sig ⟨S_, .f32⟩) main_call5.v0 id,
    TRef.unary main_call5.v0 main_call5.v1 (broadcastInDim S1 ![] bcast_S_S1),
    TRef.binary main_call5.v1 (.of main_v32 : TRef sig ⟨S1, .f32⟩) main_call5.v2 maximumf,
    TRef.unary (.of main_cst_19 : TRef sig ⟨S_, .f32⟩) main_call5.v3 id,
    TRef.unary main_call5.v3 main_call5.v4 (broadcastInDim S1 ![] bcast_S_S1),
    TRef.binary main_call5.v4 main_call5.v2 main_call5.v5 minimumf,
    unary main_v25 main_v34 Host.absf,
    nullary main_cst_20 (constant S_ .f32 0x358637BD#32),
    unary main_cst_20 main_v35 (broadcastInDim S1 ![] bcast_S_S1),
    binary main_v34 main_v35 main_v36 addf ]

/-- The third stretch: the controller's small network up to its gate. The result reads none of it. -/
abbrev opsC : List (HloOp τ sig (Elt F)) :=
  [ binary main_v33 main_v36 main_v37 Host.divf,
    unary main_v37 main_v38 (broadcastInDim S1x1 ![1] bcast_S1_S1x1_1),
    unary main_v38 main_v39 (broadcastInDim S4096x1 ![0, 1] bcast_S1x1_S4096x1_0_1),
    nary ![main_v14, main_v17, main_v39] main_v40 (fun u => concatenate S4096x3 1 [⟨S4096x1, u 0⟩, ⟨S4096x1, u 1⟩, ⟨S4096x1, u 2⟩] concatenates_S4096x1_S4096x1_S4096x1_S4096x3_d1),
    unary main_arg6 main_v41 (transpose S3x8 [1, 0] · transposes_S8x3_S3x8_1_0),
    binary main_v40 main_v41 main_v42 (fun l r => Host.dotGeneral dot_S4096x3_S3x8_S4096x8_1_0_0_1_n_n none l r),
    unary main_arg7 main_v43 (broadcastInDim S1x8 ![1] bcast_S8_S1x8_1),
    unary main_v43 main_v44 (broadcastInDim S4096x8 ![0, 1] bcast_S1x8_S4096x8_0_1),
    binary main_v42 main_v44 main_v45 addf,
    nullary main_cst_21 (constant S_ .f32 0x3F000000#32),
    unary main_cst_21 main_v46 (broadcastInDim S4096x8 ![] bcast_S_S4096x8),
    binary main_v46 main_v45 main_v47 mulf,
    unary main_v45 main_v48 Host.negf,
    nullary main_cst_22 (constant S_ .f32 0x3F3504F3#32),
    unary main_cst_22 main_v49 (broadcastInDim S4096x8 ![] bcast_S_S4096x8),
    binary main_v48 main_v49 main_v50 mulf,
    unary main_v50 main_v51 Host.erfc,
    binary main_v47 main_v51 main_v52 mulf,
    unary main_arg8 main_v53 (transpose S8x1 [1, 0] · transposes_S1x8_S8x1_1_0),
    binary main_v52 main_v53 main_v54 (fun l r => Host.dotGeneral dot_S4096x8_S8x1_S4096x1_1_0_0_1_n_n none l r),
    unary main_arg9 main_v55 (broadcastInDim S1x1 ![1] bcast_S1_S1x1_1),
    unary main_v55 main_v56 (broadcastInDim S4096x1 ![0, 1] bcast_S1x1_S4096x1_0_1),
    binary main_v54 main_v56 main_v57 addf,
    unary main_v57 main_v58 Host.negf,
    unary main_v58 main_v59 Host.exp,
    nullary main_cst_23 (constant S_ .f32 0x3F800000#32),
    unary main_cst_23 main_v60 (broadcastInDim S4096x1 ![] bcast_S_S4096x1),
    binary main_v60 main_v59 main_v61 addf,
    nullary main_cst_24 (constant S_ .f32 0x3F800000#32),
    unary main_cst_24 main_v62 (broadcastInDim S4096x1 ![] bcast_S_S4096x1),
    binary main_v62 main_v61 main_v63 Host.divf,
    reshape main_v63 main_v64 rfl shapeCasts_S4096x1_S4096 ]

/-- The fourth stretch: the rows' means and variances of the pre-activation, the normalisation, the scale and the
    shift by the two vectors, the division by five and the hyperbolic tangent. -/
abbrev opsD : List (HloOp τ sig (Elt F)) :=
  [ nullary main_cst_25 (constant S_ .f32 0x00000000#32),
    binary main_v10 main_cst_25 main_v65 (fun x v => Host.reduceAdd x v reducesTo_S4096x2048_S4096_d1 h_S_),
    unary main_v65 main_v66 (broadcastInDim S4096x1 ![0] bcast_S4096_S4096x1_0),
    nullary main_cst_26 (constant S_ .f32 0x45000000#32),
    unary main_cst_26 main_v67 (broadcastInDim S4096x1 ![] bcast_S_S4096x1),
    binary main_v66 main_v67 main_v68 Host.divf,
    nullary main_c_27 (constantI S_ 32 0#32),
    TRef.nullary main_call6.cst (constant S_ .f32 0x00000000#32),
    TRef.binary (.of main_v10 : TRef sig ⟨S4096x2048, .f32⟩) main_call6.cst main_call6.v0 (fun x v => Host.reduceAdd x v reducesTo_S4096x2048_S4096_d1 h_S_),
    TRef.unary main_call6.v0 main_call6.v1 (broadcastInDim S4096x1 ![0] bcast_S4096_S4096x1_0),
    TRef.nullary main_call6.cst_0 (constant S_ .f32 0x45000000#32),
    TRef.unary main_call6.cst_0 main_call6.v2 (broadcastInDim S4096x1 ![] bcast_S_S4096x1),
    TRef.binary main_call6.v1 main_call6.v2 main_call6.v3 Host.divf,
    TRef.unary main_call6.v3 main_call6.v4 (broadcastInDim S4096x2048 ![0, 1] bcast_S4096x1_S4096x2048_0_1),
    TRef.binary (.of main_v10 : TRef sig ⟨S4096x2048, .f32⟩) main_call6.v4 main_call6.v5 subf,
    TRef.binary main_call6.v5 main_call6.v5 main_call6.v6 mulf,
    TRef.unary (.of main_c_27 : TRef sig ⟨S_, .i32⟩) main_call6.v7 (sitofp .f32),
    TRef.nullary main_call6.cst_1 (constant S_ .f32 0x45000000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S4096x2048_S4096_d1 h_S_),
    TRef.unary main_call6.v9 main_call6.v10 (broadcastInDim S4096x1 ![0] bcast_S4096_S4096x1_0),
    TRef.unary main_call6.v8 main_call6.v11 (broadcastInDim S4096x1 ![] bcast_S_S4096x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6_call0.v0 id,
    TRef.unary main_call6_call0.v0 main_call6_call0.v1 (broadcastInDim S4096x1 ![] bcast_S_S4096x1),
    TRef.ternary main_call6.v13 main_call6.v12 main_call6_call0.v1 main_call6_call0.v2 (fun p a b => select (broadcastInDim S4096x1 ![] bcast_S_S4096x1 p) a b),
    unary main_v68 main_v70 (broadcastInDim S4096x2048 ![0, 1] bcast_S4096x1_S4096x2048_0_1),
    binary main_v10 main_v70 main_v71 subf,
    nullary main_cst_28 (constant S_ .f32 0x3727C5AC#32),
    unary main_cst_28 main_v72 (broadcastInDim S4096x1 ![] bcast_S_S4096x1),
    binary main_v69 main_v72 main_v73 addf,
    unary main_v73 main_v74 Host.rsqrt,
    unary main_v74 main_v75 (broadcastInDim S4096x2048 ![0, 1] bcast_S4096x1_S4096x2048_0_1),
    binary main_v71 main_v75 main_v76 mulf,
    unary main_arg4 main_v77 (broadcastInDim S1x2048 ![1] bcast_S2048_S1x2048_1),
    unary main_v77 main_v78 (broadcastInDim S4096x2048 ![0, 1] bcast_S1x2048_S4096x2048_0_1),
    binary main_v76 main_v78 main_v79 mulf,
    unary main_arg5 main_v80 (broadcastInDim S1x2048 ![1] bcast_S2048_S1x2048_1),
    unary main_v80 main_v81 (broadcastInDim S4096x2048 ![0, 1] bcast_S1x2048_S4096x2048_0_1),
    binary main_v79 main_v81 main_v82 addf,
    nullary main_cst_29 (constant S_ .f32 0x40A00000#32),
    unary main_cst_29 main_v83 (broadcastInDim S4096x2048 ![] bcast_S_S4096x2048),
    binary main_v82 main_v83 main_v84 Host.divf,
    unary main_v84 main_v85 Host.tanh,
    nullary main_cst_30 (constant S_ .f32 0x40A00000#32),
    unary main_cst_30 main_v86 (broadcastInDim S4096x2048 ![] bcast_S_S4096x2048) ]

/-- The fifth stretch: the product by five, the result. -/
abbrev opsE : List (HloOp τ sig (Elt F)) :=
  [ binary main_v86 main_v85 main_v87 mulf ]

/-- @main's operations, in order. -/
abbrev ops : List (HloOp τ sig (Elt F)) := (opsA ++ opsB) ++ ((opsC ++ opsD) ++ opsE)

/-! ## @main is that line -/

set_option maxRecDepth 8192 in
/-- @main's first window is the first two stretches: the functions' bodies unfolded at their calls, both sides are one
    chain of steps. -/
theorem part0_eq (c : Dev nD) : main_part0 (F := F) c = seq (opsA ++ opsB) := rfl

set_option maxRecDepth 8192 in
/-- @main's second window is the third and fourth stretches. -/
theorem part1_eq (c : Dev nD) : main_part1 (F := F) c = seq (opsC ++ opsD) := rfl

/-- @main's third window is the fifth stretch. -/
theorem part2_eq (c : Dev nD) : main_part2 (F := F) c = seq opsE := rfl

/-- @main is the whole line: its three windows one after the other are their concatenation run as one. -/
theorem main_eq (c : Dev nD) : main (F := F) c = seq ops := by
  show (main_part0 c >>= fun _ => main_part1 c >>= fun _ => main_part2 c) = _
  rw [part0_eq, part1_eq, part2_eq, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem opsA_sub : (opsA : List (HloOp τ sig (Elt F))).Forall fun op => op.bufs ⊆ tcRefs τ sig := by
  simp only [List.Forall, nullary_bufs_sub, unary_bufs_sub, binary_bufs_sub, and_self]
theorem opsB_sub : (opsB : List (HloOp τ sig (Elt F))).Forall fun op => op.bufs ⊆ tcRefs τ sig := by
  simp only [List.Forall, nullary_bufs_sub, unary_bufs_sub, binary_bufs_sub, ternary_bufs_sub, and_self]
theorem opsC_sub : (opsC : List (HloOp τ sig (Elt F))).Forall fun op => op.bufs ⊆ tcRefs τ sig := by
  simp only [List.Forall, nullary_bufs_sub, unary_bufs_sub, binary_bufs_sub, nary_bufs_sub, reshape_bufs_sub, and_self]
theorem opsD_sub : (opsD : List (HloOp τ sig (Elt F))).Forall fun op => op.bufs ⊆ tcRefs τ sig := by
  simp only [List.Forall, nullary_bufs_sub, unary_bufs_sub, binary_bufs_sub, ternary_bufs_sub, and_self]
theorem opsE_sub : (opsE : List (HloOp τ sig (Elt F))).Forall fun op => op.bufs ⊆ tcRefs τ sig := by
  simp only [List.Forall, binary_bufs_sub]

theorem ops_sub : (ops : List (HloOp τ sig (Elt F))).Forall fun op => op.bufs ⊆ tcRefs τ sig := by
  have hA := List.forall_iff_forall_mem.1 (opsA_sub (F := F))
  have hB := List.forall_iff_forall_mem.1 (opsB_sub (F := F))
  have hC := List.forall_iff_forall_mem.1 (opsC_sub (F := F))
  have hD := List.forall_iff_forall_mem.1 (opsD_sub (F := F))
  have hE := List.forall_iff_forall_mem.1 (opsE_sub (F := F))
  refine List.forall_iff_forall_mem.2 fun op hop => ?_
  rcases List.mem_append.1 hop with h | h
  · rcases List.mem_append.1 h with h | h
    · exact hA op h
    · exact hB op h
  · rcases List.mem_append.1 h with h | h
    · rcases List.mem_append.1 h with h | h
      · exact hC op h
      · exact hD op h
    · exact hE op h

/-- Every operation of a stretch determines its results: by computation on the literal list. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op hop
  rcases List.mem_append.1 hop with h | h
  · rcases List.mem_append.1 h with h | h
    · exact opsA_fresh op h
    · exact opsB_fresh op h
  · rcases List.mem_append.1 h with h | h
    · rcases List.mem_append.1 h with h | h
      · exact opsC_fresh op h
      · exact opsD_fresh op h
    · exact opsE_fresh op h

/-! ## What each stretch writes -/

/-- An operation that writes the one buffer `y` writes inside any list that holds `y`. -/
theorem writes_sub {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Operation by operation: the buffer it writes is in the list. -/
macro "refrun_writes_all" : tactic =>
  `(tactic| (simp only [List.Forall]; repeat' (first | apply And.intro | exact writes_sub _ rfl (by decide))))

/-- The buffers the first stretch writes. -/
abbrev A_W : List (Ref sig .tc) :=
  [main_cst, main_cst_0, main_call0_v0, main_call0_v1, main_call0_v2, main_call0_v3, main_call0_v4, main_v0, main_v1, main_v2,
    main_cst_1, main_cst_2, main_call1_v0, main_call1_v1, main_call1_v2, main_call1_v3, main_call1_v4, main_v3, main_v4, main_v5,
    main_v6, main_v7, main_v8, main_v9, main_cst_3, main_cst_4, main_call2_v0, main_call2_v1, main_call2_v2, main_call2_v3,
    main_call2_v4, main_v10]

/-- The buffers the second stretch writes. -/
abbrev B_W : List (Ref sig .tc) :=
  [main_cst_5, main_v11, main_v12, main_cst_6, main_v13, main_v14, main_c, main_call3_call0_cst, main_call3_call0_v0,
    main_call3_call0_v1, main_call3_call0_cst_0, main_call3_call0_v2, main_call3_call0_v3, main_call3_call0_v4,
    main_call3_call0_v5, main_call3_call0_v6, main_call3_call0_v7, main_call3_call0_cst_1, main_call3_call0_v8,
    main_call3_call0_cst_2, main_call3_call0_v9, main_call3_call0_v10, main_call3_call0_v11, main_call3_call0_v12,
    main_call3_call0_cst_3, main_call3_call0_v13, main_call3_call0_cst_4, main_call3_call0_call0_v0,
    main_call3_call0_call0_v1, main_call3_v0, main_v15, main_cst_7, main_v16, main_v17, main_cst_8, main_v18, main_v19,
    main_cst_9, main_v20, main_cst_10, main_v21, main_cst_11, main_v22, main_v23, main_v24, main_cst_12, main_cst_13,
    main_call4_v0, main_call4_v1, main_call4_v2, main_call4_v3, main_call4_v4, main_v25, main_cst_14, main_v26, main_v27,
    main_cst_15, main_v28, main_cst_16, main_v29, main_cst_17, main_v30, main_v31, main_v32, main_cst_18, main_cst_19,
    main_call5_v0, main_call5_v1, main_call5_v2, main_call5_v3, main_call5_v4, main_v33, main_v34, main_cst_20, main_v35,
    main_v36]

/-- The buffers the third stretch writes. -/
abbrev C_W : List (Ref sig .tc) :=
  [main_v37, main_v38, main_v39, main_v40, main_v41, main_v42, main_v43, main_v44, main_v45, main_cst_21, main_v46, main_v47,
    main_v48, main_cst_22, main_v49, main_v50, main_v51, main_v52, main_v53, main_v54, main_v55, main_v56, main_v57, main_v58,
    main_v59, main_cst_23, main_v60, main_v61, main_cst_24, main_v62, main_v63, main_v64]

/-- The buffers the fourth stretch writes. -/
abbrev D_W : List (Ref sig .tc) :=
  [main_cst_25, main_v65, main_v66, main_cst_26, main_v67, main_v68, main_c_27, main_call6_cst, main_call6_v0, main_call6_v1,
    main_call6_cst_0, main_call6_v2, main_call6_v3, main_call6_v4, main_call6_v5, main_call6_v6, main_call6_v7,
    main_call6_cst_1, main_call6_v8, main_call6_cst_2, main_call6_v9, main_call6_v10, main_call6_v11, main_call6_v12,
    main_call6_cst_3, main_call6_v13, main_call6_cst_4, main_call6_call0_v0, main_call6_call0_v1, main_v69, main_v70,
    main_v71, main_cst_28, main_v72, main_v73, main_v74, main_v75, main_v76, main_v77, main_v78, main_v79, main_v80, main_v81,
    main_v82, main_cst_29, main_v83, main_v84, main_v85, main_cst_30, main_v86]

theorem A_writes : (opsA : List (HloOp τ sig (Elt F))).Forall fun op =>
    op.writes ⊆ (A_W.map (Proc.devRef (τ := τ) .tc)).toFinset := by refrun_writes_all
theorem B_writes : (opsB : List (HloOp τ sig (Elt F))).Forall fun op =>
    op.writes ⊆ (B_W.map (Proc.devRef (τ := τ) .tc)).toFinset := by refrun_writes_all
theorem C_writes : (opsC : List (HloOp τ sig (Elt F))).Forall fun op =>
    op.writes ⊆ (C_W.map (Proc.devRef (τ := τ) .tc)).toFinset := by refrun_writes_all
theorem D_writes : (opsD : List (HloOp τ sig (Elt F))).Forall fun op =>
    op.writes ⊆ (D_W.map (Proc.devRef (τ := τ) .tc)).toFinset := by refrun_writes_all
theorem E_writes : (opsE : List (HloOp τ sig (Elt F))).Forall fun op =>
    op.writes ⊆ ([main_v87].map (Proc.devRef (τ := τ) .tc)).toFinset := by refrun_writes_all

/-- A buffer outside a stretch's list keeps its contents through the stretch. -/
theorem keepA (V : Valuation τ sig (Elt F)) (r : Ref sig .tc) (h : r ∉ A_W) :
    after opsA V (Proc.devRef .tc r) = V (Proc.devRef .tc r) := after_of_writes_sub opsA V A_writes h
theorem keepB (V : Valuation τ sig (Elt F)) (r : Ref sig .tc) (h : r ∉ B_W) :
    after opsB V (Proc.devRef .tc r) = V (Proc.devRef .tc r) := after_of_writes_sub opsB V B_writes h
theorem keepC (V : Valuation τ sig (Elt F)) (r : Ref sig .tc) (h : r ∉ C_W) :
    after opsC V (Proc.devRef .tc r) = V (Proc.devRef .tc r) := after_of_writes_sub opsC V C_writes h
theorem keepD (V : Valuation τ sig (Elt F)) (r : Ref sig .tc) (h : r ∉ D_W) :
    after opsD V (Proc.devRef .tc r) = V (Proc.devRef .tc r) := after_of_writes_sub opsD V D_writes h
theorem keepE (V : Valuation τ sig (Elt F)) (r : Ref sig .tc) (h : r ∉ [main_v87]) :
    after opsE V (Proc.devRef .tc r) = V (Proc.devRef .tc r) := after_of_writes_sub opsE V E_writes h

/-- The contents after the whole line, stretch by stretch. -/
theorem after_ops (V : Valuation τ sig (Elt F)) :
    after ops V = after opsE (after opsD (after opsC (after opsB (after opsA V)))) := by
  simp only [ops, Cert.LibAfter.after_append]

/-- A buffer no stretch writes keeps its contents through the whole line. -/
theorem keep (V : Valuation τ sig (Elt F)) (r : Ref sig .tc) (hA : r ∉ A_W) (hB : r ∉ B_W) (hC : r ∉ C_W) (hD : r ∉ D_W)
    (hE : r ∉ [main_v87]) : after ops V (Proc.devRef .tc r) = V (Proc.devRef .tc r) := by
  rw [after_ops, keepE _ r hE, keepD _ r hD, keepC _ r hC, keepB _ r hB, keepA _ r hA]

/-! ## The result -/

/-- The result from the pre-activation `p` and the two vectors: five times the hyperbolic tangent of a fifth of the
    normalised, scaled and shifted pre-activation. -/
def outOf (p : FVec F S4096x2048 .f32) (g b : FVec F S2048 .f32) : FVec F S4096x2048 .f32 :=
  mulf (broadcastInDim S4096x2048 ![] bcast_S_S4096x2048 (constant S_ .f32 0x40A00000#32))
    (Host.tanh
      (Host.divf
        (addf
          (mulf
            (mulf
              (subf p (broadcastInDim S4096x2048 ![0, 1] bcast_S4096x1_S4096x2048_0_1 (rowMeans p)))
              (broadcastInDim S4096x2048 ![0, 1] bcast_S4096x1_S4096x2048_0_1
                (Host.rsqrt (addf (rowVars p)
                  (broadcastInDim S4096x1 ![] bcast_S_S4096x1 (constant S_ .f32 0x3727C5AC#32))))))
            (alongRows g))
          (alongRows b))
        (broadcastInDim S4096x2048 ![] bcast_S_S4096x2048 (constant S_ .f32 0x40A00000#32))))

/-- The reference's result is that function of its pre-activation. -/
theorem refOut_outOf (x : FVec F S4096x2048 .f32) (ws wm wf : FVec F S2048x2048 .f32) (g b : FVec F S2048 .f32) :
    refOut x ws wm wf g b = outOf (preAct x ws wm wf) g b := rfl

set_option maxRecDepth 8192 in
set_option maxHeartbeats 2000000 in
/-- After the first stretch `main_v10` holds the pre-activation of the four arguments it reads. -/
theorem resA (V : Valuation τ sig (Elt F)) :
    after opsA V (Proc.devRef .tc main_v10)
      = preAct (V (Proc.devRef .tc main_arg0)) (V (Proc.devRef .tc main_arg1)) (V (Proc.devRef .tc main_arg2))
          (V (Proc.devRef .tc main_arg3)) := by
  simp only [opsA]
  after_results_simp
  rfl

set_option maxRecDepth 8192 in
set_option maxHeartbeats 2000000 in
/-- After the last two stretches `main_v87` holds the result computed from what `main_v10` and the two vectors held. -/
theorem resDE (W : Valuation τ sig (Elt F)) :
    after opsE (after opsD W) (Proc.devRef .tc main_v87)
      = outOf (W (Proc.devRef .tc main_v10)) (W (Proc.devRef .tc main_arg4)) (W (Proc.devRef .tc main_arg5)) := by
  simp only [opsE, opsD]
  after_results_simp
  rfl

/-- After the whole line the result buffer holds `refOut` of the six arguments it reads. -/
theorem res (V : Valuation τ sig (Elt F)) :
    after ops V (Proc.devRef .tc main_v87)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, resDE, keepC _ main_v10 (by decide), keepB _ main_v10 (by decide), resA,
    keepC _ main_arg4 (by decide), keepB _ main_arg4 (by decide), keepA _ main_arg4 (by decide),
    keepC _ main_arg5 (by decide), keepB _ main_arg5 (by decide), keepA _ main_arg5 (by decide), refOut_outOf]

/-- A buffer outside every stretch's list keeps its contents through the whole line. -/
theorem keepAll (V : Valuation τ sig (Elt F)) (r : Ref sig .tc) (h : r ∉ A_W ++ (B_W ++ (C_W ++ (D_W ++ [main_v87])))) :
    after ops V (Proc.devRef .tc r) = V (Proc.devRef .tc r) := by
  simp only [List.mem_append, not_or] at h
  exact keep V r h.1 h.2.1 h.2.2.1 h.2.2.2.1 h.2.2.2.2

end RefRun

/-! ## The run -/

/-- On every device, for any float values, from any memory with zero counters: every weakly fair execution of @main
    terminates with the result buffer at `refOut` of the six arguments it reads and all twelve arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v87).trans (RefRun.res _),
      (h c main_arg0).trans (RefRun.keepAll _ main_arg0 (by decide)),
      (h c main_arg1).trans (RefRun.keepAll _ main_arg1 (by decide)),
      (h c main_arg2).trans (RefRun.keepAll _ main_arg2 (by decide)),
      (h c main_arg3).trans (RefRun.keepAll _ main_arg3 (by decide)),
      (h c main_arg4).trans (RefRun.keepAll _ main_arg4 (by decide)),
      (h c main_arg5).trans (RefRun.keepAll _ main_arg5 (by decide)),
      (h c main_arg6).trans (RefRun.keepAll _ main_arg6 (by decide)),
      (h c main_arg7).trans (RefRun.keepAll _ main_arg7 (by decide)),
      (h c main_arg8).trans (RefRun.keepAll _ main_arg8 (by decide)),
      (h c main_arg9).trans (RefRun.keepAll _ main_arg9 (by decide)),
      (h c main_arg10).trans (RefRun.keepAll _ main_arg10 (by decide)),
      (h c main_arg11).trans (RefRun.keepAll _ main_arg11 (by decide))⟩)
    (run_seq RefRun.scopedRefs_eq RefRun.scopedSems_eq defs main (fun _ => RefRun.ops) RefRun.main_eq
      (fun _ => RefRun.ops_sub) m ρ (fun _ => RefRun.ops_fresh))

end Cert.ReferenceIdeal.RefValue

end
-- ==== Proof.RefValue.lean ====
/-
  The reference's result term, read index by index at the ideal values, is the specification's function.

  At the ideal values every float is an extended real, every operation is exact and a change of format is the
  identity, so each operation of the term is read at one index (r, o): a clamp is min and max against two words'
  values; the product with a transposed matrix is the sum over the 2048 contracted coordinates of row r of the one
  against row o of the other; a sum over the second axis from the zero word is the row's sum; a rank-0 value laid over
  an array is that value everywhere, a column laid along the rows its entry at the row, a vector laid along the rows
  its entry at the column. The variance's divisor is the value of the word of 2048 less the real 0 the integer word 0
  converts to; it is above zero, so the selection takes the quotient. Both sides are then the same operations on the
  same entries: no algebra enters.
-/
import proofs.«172903_j18769007084266_1_alg».proof.Proof.RefTerm
import proofs.«172903_j18769007084266_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.ShloMosaic.ValueIdx

namespace AtIndex

/-! ## The clamp and the product with a transposed matrix -/

/-- A clamp of every entry, read at one entry. -/
theorem clipAll_apply (lo hi : BitVec 32) (a : FVec Ideal S4096x2048 .f32) (r : Fin 4096) (k : Fin 2048) :
    clipAll (F := Ideal) lo hi a (ix2 r k) = Cert.Spec.clamp lo hi (a (ix2 r k)) := rfl

/-- The left operand's index of the product: its row is the result's row … -/
theorem lhs_mulT_0 (i : S4096x2048.Idx) (q : dot_S4096x2048_S2048x2048_S4096x2048_1_0_0_1_n_n.contr.Idx) :
    (dot_S4096x2048_S2048x2048_S4096x2048_1_0_0_1_n_n.lhsIdx i q 0).val = (i 0).val := by
  unfold DotDims.lhsIdx
  rw [dif_neg (show ¬(0 : Fin S4096x2048.rank) ∈ dot_S4096x2048_S2048x2048_S4096x2048_1_0_0_1_n_n.lhsBatch by decide),
    dif_pos (show (0 : Fin S4096x2048.rank) ∈ dot_S4096x2048_S2048x2048_S4096x2048_1_0_0_1_n_n.lhsNonContracting by decide)]
  rfl
/-- … and its column the contracted coordinate. -/
theorem lhs_mulT_1 (i : S4096x2048.Idx) (q : dot_S4096x2048_S2048x2048_S4096x2048_1_0_0_1_n_n.contr.Idx) :
    (dot_S4096x2048_S2048x2048_S4096x2048_1_0_0_1_n_n.lhsIdx i q 1).val = (q ⟨0, by decide⟩).val :=
  dot_S4096x2048_S2048x2048_S4096x2048_1_0_0_1_n_n.lhsIdx_val_of_single rfl i q
/-- The right operand's index: its row is the contracted coordinate … -/
theorem rhs_mulT_0 (i : S4096x2048.Idx) (q : dot_S4096x2048_S2048x2048_S4096x2048_1_0_0_1_n_n.contr.Idx) :
    (dot_S4096x2048_S2048x2048_S4096x2048_1_0_0_1_n_n.rhsIdx i q 0).val = (q ⟨0, by decide⟩).val :=
  dot_S4096x2048_S2048x2048_S4096x2048_1_0_0_1_n_n.rhsIdx_val_of_single rfl i q
/-- … and its column the result's column. -/
theorem rhs_mulT_1 (i : S4096x2048.Idx) (q : dot_S4096x2048_S2048x2048_S4096x2048_1_0_0_1_n_n.contr.Idx) :
    (dot_S4096x2048_S2048x2048_S4096x2048_1_0_0_1_n_n.rhsIdx i q 1).val = (i 1).val := by
  unfold DotDims.rhsIdx
  rw [dif_neg (show ¬(1 : Fin S2048x2048.rank) ∈ dot_S4096x2048_S2048x2048_S4096x2048_1_0_0_1_n_n.rhsBatch by decide),
    dif_pos (show (1 : Fin S2048x2048.rank) ∈ dot_S4096x2048_S2048x2048_S4096x2048_1_0_0_1_n_n.rhsNonContracting by decide)]
  rfl

/-- The product with a transposed matrix at (r, o): row r of the one against row o of the other. -/
theorem mulT_apply (a : FVec Ideal S4096x2048 .f32) (w : FVec Ideal S2048x2048 .f32) (r : Fin 4096) (o : Fin 2048) :
    mulT (F := Ideal) a w (ix2 r o) = ∑ k : Fin 2048, a (ix2 r k) * w (ix2 o k) := by
  unfold mulT
  simp only [Host.dotGeneral]
  rw [Ideal.dotGeneral_apply,
    ← Equiv.sum_comp (ValueIdx.contrEquiv1 dot_S4096x2048_S2048x2048_S4096x2048_1_0_0_1_n_n 2048 rfl rfl).symm]
  refine Finset.sum_congr rfl fun k _ => ?_
  have hk := ValueIdx.contrEquiv1_symm_val dot_S4096x2048_S2048x2048_S4096x2048_1_0_0_1_n_n 2048 rfl rfl k
  have el : dot_S4096x2048_S2048x2048_S4096x2048_1_0_0_1_n_n.lhsIdx (ix2 r o)
      ((ValueIdx.contrEquiv1 dot_S4096x2048_S2048x2048_S4096x2048_1_0_0_1_n_n 2048 rfl rfl).symm k) = ix2 r k :=
    funext fun c => Fin.ext (by
      match c with
      | ⟨0, _⟩ => exact lhs_mulT_0 _ _
      | ⟨1, _⟩ => exact (lhs_mulT_1 _ _).trans hk)
  have er : dot_S4096x2048_S2048x2048_S4096x2048_1_0_0_1_n_n.rhsIdx (ix2 r o)
      ((ValueIdx.contrEquiv1 dot_S4096x2048_S2048x2048_S4096x2048_1_0_0_1_n_n 2048 rfl rfl).symm k) = ix2 k o :=
    funext fun c => Fin.ext (by
      match c with
      | ⟨0, _⟩ => exact (rhs_mulT_0 _ _).trans hk
      | ⟨1, _⟩ => exact rhs_mulT_1 _ _)
  rw [el, er]
  exact congrArg (a (ix2 r k) * ·) (transpose_ix2_apply w transposes_S2048x2048_S2048x2048_1_0 k o)

/-! ## Layout operations of this program read at an index -/

/-- A rank-0 value laid over a larger shape reads its one entry at every index. -/
theorem bcast0_apply {α : Type} {t : Shape} (h : S_.BroadcastsInDim t ![]) (v : S_.Idx → α) (j : t.Idx) :
    broadcastInDim t ![] h v j = v ix0 :=
  broadcastInDim_apply ![] h v j ix0 (fun a => a.elim0)

/-- A vector of 4096 entries stood up as a column: entry (r, 0) is the vector's entry r. -/
theorem toCol_apply {α : Type} (v : S4096.Idx → α) (r : Fin 4096) :
    broadcastInDim S4096x1 ![0] bcast_S4096_S4096x1_0 v (ix2 r (0 : Fin 1)) = v (ix1 r) :=
  broadcastInDim_apply ![0] bcast_S4096_S4096x1_0 v _ _ (fun c => by match c with | ⟨0, _⟩ => rfl)

/-- A column laid along every row: entry (r, o) is the column's entry at row r. -/
theorem colAlong_apply {α : Type} (v : S4096x1.Idx → α) (r : Fin 4096) (o : Fin 2048) :
    broadcastInDim S4096x2048 ![0, 1] bcast_S4096x1_S4096x2048_0_1 v (ix2 r o) = v (ix2 r (0 : Fin 1)) :=
  broadcastInDim_apply ![0, 1] bcast_S4096x1_S4096x2048_0_1 v _ _
    (fun c => by match c with | ⟨0, _⟩ => rfl | ⟨1, _⟩ => rfl)

/-- A vector of 2048 entries laid along every row: entry (r, o) is the vector's entry o. -/
theorem alongRows_apply (v : FVec Ideal S2048 .f32) (r : Fin 4096) (o : Fin 2048) :
    alongRows (F := Ideal) v (ix2 r o) = v (ix1 o) := by
  unfold alongRows
  refine (broadcastInDim_apply ![0, 1] bcast_S1x2048_S4096x2048_0_1 _ (ix2 r o) (ix2 (0 : Fin 1) o)
    (fun c => by match c with | ⟨0, _⟩ => rfl | ⟨1, _⟩ => rfl)).trans ?_
  exact broadcastInDim_apply ![1] bcast_S2048_S1x2048_1 v (ix2 (0 : Fin 1) o) (ix1 o)
    (fun c => by match c with | ⟨0, _⟩ => rfl)

/-! ## The host's one-operand functions and its division at an index -/

theorem hostTanh_apply {s : Shape} (a : FVec Ideal s .f32) (i : s.Idx) : Host.tanh a i = Ideal.tanh (a i) := rfl
theorem hostRsqrt_apply {s : Shape} (a : FVec Ideal s .f32) (i : s.Idx) : Host.rsqrt a i = Ideal.rsqrt (a i) := rfl
theorem hostDivf_apply {s : Shape} (a b : FVec Ideal s .f32) (i : s.Idx) : Host.divf a b i = Ideal.div (a i) (b i) := rfl

/-! ## The pre-activation -/

/-- The pre-activation at (r, o) is the specification's. -/
theorem preAct_apply (x : FVec Ideal S4096x2048 .f32) (ws wm wf : FVec Ideal S2048x2048 .f32) (r : Fin 4096) (o : Fin 2048) :
    preAct (F := Ideal) x ws wm wf (ix2 r o) = Cert.Spec.pre x ws wm wf r o := by
  unfold preAct Cert.Spec.pre Cert.Spec.dot Cert.Spec.xc
  rw [clipAll_apply, addf_apply, addf_apply, clipAll_apply, mulT_apply, mulT_apply, mulT_apply]
  simp only [clipAll_apply]

/-! ## The rows' sums, means and variances -/

/-- The host's sum over the second axis from the zero word, read at row r: the row's sum. -/
theorem rowSum_apply (p : FVec Ideal S4096x2048 .f32) (r : Fin 4096) :
    Host.reduceAdd (F := Ideal) p (constant (F := Ideal) S_ .f32 0x00000000#32) reducesTo_S4096x2048_S4096_d1 h_S_ (ix1 r)
      = ∑ o : Fin 2048, p (ix2 r o) := by
  unfold Host.reduceAdd
  simp only [Ideal.hostReduceAdd_def]
  rw [Ideal.hostReduceAdd_single reducesTo_S4096x2048_S4096_d1 (by decide)]
  show Ideal.ofBits .f32 0x00000000#32 + _ = _
  rw [Ideal.ofBits_zero_f32, zero_add]
  refine Finset.sum_congr rfl fun k _ => ?_
  exact congrArg p (funext fun c => Fin.ext (by match c with | ⟨0, _⟩ => rfl | ⟨1, _⟩ => rfl))

/-- The column of means at row r is the mean of row r. -/
theorem rowMeans_apply (p : FVec Ideal S4096x2048 .f32) (r : Fin 4096) :
    rowMeans (F := Ideal) p (ix2 r (0 : Fin 1)) = Cert.Spec.rowMean (fun o => p (ix2 r o)) := by
  unfold rowMeans Cert.Spec.rowMean
  rw [hostDivf_apply, toCol_apply, rowSum_apply, bcast0_apply, constant_apply]

/-- The integer word 0 converts to the real 0, so the variance's divisor is the row length's word's value. -/
theorem varDivisor_apply : varDivisor (F := Ideal) ix0 = Ideal.ofBits .f32 0x45000000#32 := by
  show Ideal.ofBits .f32 0x45000000#32 - (((0#32 : BitVec 32).toInt : ℝ) : EReal) = _
  simp

/-- The f32 word 0x45000000 denotes the real 2048. -/
theorem ofBits_2048 : Ideal.ofBits .f32 0x45000000#32 = ((2048 : ℝ) : EReal) := by
  simp [Ideal.ofBits, Ideal.ieee, -EReal.coe_mul]; norm_num

/-- The divisor is above zero: the comparison's bit is 1. -/
theorem varDivisor_pos :
    cmpf .ogt (varDivisor (F := Ideal)) (constant (F := Ideal) S_ .f32 0x00000000#32) ix0 = 1#1 := by
  rw [cmpf_apply, varDivisor_apply, constant_apply, Ideal.cmpf_def, Ideal.ofBits_zero_f32, ofBits_2048]
  simp [Ideal.cmp]

/-- The column of variances at row r is the variance of row r. -/
theorem rowVars_apply (p : FVec Ideal S4096x2048 .f32) (r : Fin 4096) :
    rowVars (F := Ideal) p (ix2 r (0 : Fin 1)) = Cert.Spec.rowVar (fun o => p (ix2 r o)) := by
  unfold rowVars Cert.Spec.rowVar
  rw [select_apply, bcast0_apply, varDivisor_pos, select_one, hostDivf_apply, toCol_apply, rowSum_apply, bcast0_apply,
    varDivisor_apply]
  refine congrArg (Ideal.div · _) (Finset.sum_congr rfl fun o _ => ?_)
  rw [mulf_apply, subf_apply, colAlong_apply, rowMeans_apply]

end AtIndex

open AtIndex

/-! ## The result -/

/-- At the ideal values the reference's term is the specification's function of the same arrays. -/
theorem refOut_eq (x : FVec Ideal S4096x2048 .f32) (ws wm wf : FVec Ideal S2048x2048 .f32) (g b : FVec Ideal S2048 .f32) :
    refOut (F := Ideal) x ws wm wf g b = Cert.Spec.G x ws wm wf g b := by
  funext i
  obtain ⟨r, o, rfl⟩ : ∃ (r : Fin 4096) (o : Fin 2048), i = ix2 r o := ⟨i 0, i 1, eq_ix2 i⟩
  rw [Cert.Spec.G_apply]
  unfold refOut Cert.Spec.tail
  rw [mulf_apply, hostTanh_apply, hostDivf_apply, addf_apply, mulf_apply, mulf_apply, subf_apply, colAlong_apply,
    colAlong_apply, hostRsqrt_apply, addf_apply, alongRows_apply, alongRows_apply, rowMeans_apply, rowVars_apply,
    bcast0_apply, bcast0_apply, constant_apply, constant_apply]
  simp only [preAct_apply]

end Cert.ReferenceIdeal.RefValue

end
-- ==== Proof.lean ====
/-
  The certificate of the fused kernel: a row block of x, clamped to [-5, 5], is multiplied with three weight matrices
  transposed, 256 contracted coordinates at a time over 8 steps, into two accumulators (the slow product; the sum of the
  two others); at the last step the slow product is clamped to [-10, 10], the other accumulator added and the sum
  clamped again, each row normalised (mean and variance over its 2048 entries, rsqrt of the variance plus eps), scaled,
  shifted, and squashed by 5 · tanh (· / 5). The reference does the same with whole matrix products and then, besides,
  computes statistics that do not enter its result.

  At the ideal values both end at one function of the arguments (`Cert.Spec.G`): the kernel's result array by the
  accumulation over the grid (KAccum.lean, over the generated value leg of the kernel's frame run: the accumulators
  after each point by induction, the 8 block sums the whole contraction, the last steps' blocks covering the array), the
  reference's by its run (RefRun.lean: its @main is a straight line of host operations) read index by index
  (RefValue.lean). The only algebra between them is re-association of sums on the extended reals, so the precondition
  is not used beyond the frames. The kernel's two frames are the generated ones; the ideal pass rewrote nothing.
-/
import proofs.«172903_j18769007084266_1_alg».proof.Defs
import proofs.«172903_j18769007084266_1_alg».proof.Proof.Gen.Kernel
import proofs.«172903_j18769007084266_1_alg».proof.Proof.Gen.Kernel.Skeleton
import proofs.«172903_j18769007084266_1_alg».proof.Proof.Gen.Kernel.Launch
import proofs.«172903_j18769007084266_1_alg».proof.Proof.Gen.Kernel.Points
import proofs.«172903_j18769007084266_1_alg».proof.Proof.Gen.Kernel.Frame
import proofs.«172903_j18769007084266_1_alg».proof.Proof.Gen.KernelIdeal
import proofs.«172903_j18769007084266_1_alg».proof.Proof.Gen.KernelIdeal.Skeleton
import proofs.«172903_j18769007084266_1_alg».proof.Proof.Gen.KernelIdeal.Launch
import proofs.«172903_j18769007084266_1_alg».proof.Proof.Gen.KernelIdeal.Points
import proofs.«172903_j18769007084266_1_alg».proof.Proof.Gen.KernelIdeal.Frame
import proofs.«172903_j18769007084266_1_alg».proof.Proof.Gen.KernelIdeal.Value
import proofs.«172903_j18769007084266_1_alg».proof.Proof.Gen.ReferenceIdeal
import proofs.«172903_j18769007084266_1_alg».proof.Proof.Gen.Pre_finite_inputs
import proofs.«172903_j18769007084266_1_alg».proof.Proof.KAccum
import proofs.«172903_j18769007084266_1_alg».proof.Proof.RefRun
import proofs.«172903_j18769007084266_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, terminates and leaves its arguments: its generated frame. -/
theorem frame_kernel : Cert.frame_Kernel := fun m ρ _ => Cert.Kernel.Gen.frame m ρ

/-- The same of the kernel read at the ideal values. -/
theorem frame_kernelIdeal : Cert.frame_KernelIdeal := fun m ρ _ => Cert.KernelIdeal.Gen.frame m ρ

/-- The reference runs, terminates and leaves its arguments: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories agreeing on the arguments both programs end at the specification's array of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, -⟩ := hagree c
  rw [Cert.ReferenceIdeal.RefValue.refOut_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
